-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x32000 : Shape := ⟨2, ![8192, 32000]⟩
abbrev S8192 : Shape := ⟨1, ![8192]⟩
abbrev S_ : Shape := ⟨0, ![]⟩

class Facts : Prop where
  bcast_S_S8192x32000 : S_.BroadcastsInDim S8192x32000 (![] : Fin 0 → Fin S8192x32000.rank)
  reducesTo_S8192x32000_S_d0_1 : S8192x32000.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x32000 .f32) (main_arg1 : IVec S8192 32) : IVec S_ 1 :=
  let main_v0 : FVec F S8192x32000 .f32 := Host.absf main_arg0
  let main_cst : FVec F S_ .f32 := constant S_ .f32 0x7F800000#32
  let main_v1 : FVec F S8192x32000 .f32 := broadcastInDim S8192x32000 ![] bcast_S_S8192x32000 main_cst
  let main_v2 : IVec S8192x32000 1 := cmpf .olt main_v0 main_v1
  let main_c : IVec S_ 1 := constantI S_ 1 1#1
  let main_v3 : IVec S_ 1 := (fun x v => Host.reduce IntOp.andi x v reducesTo_S8192x32000_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 32000#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  main_v10
-- ==== Kernel.lean ====
abbrev S8192x32000 : Shape := ⟨2, ![8192, 32000]⟩
abbrev S8192 : Shape := ⟨1, ![8192]⟩
abbrev S8192x1 : Shape := ⟨2, ![8192, 1]⟩
abbrev S512x3200 : Shape := ⟨2, ![512, 3200]⟩
abbrev S512x1 : Shape := ⟨2, ![512, 1]⟩
abbrev S512 : Shape := ⟨1, ![512]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 41
  | .vmem => 6
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S8192x1, .f32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S8192, .i32⟩
  | .hbm, ⟨7, _⟩ => ⟨S8192, .i32⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192x1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S_, .i32⟩
  | .hbm, ⟨16, _⟩ => ⟨S8192x1, .i32⟩
  | .hbm, ⟨17, _⟩ => ⟨S8192x1, .i32⟩
  | .hbm, ⟨18, _⟩ => ⟨S8192x1, .i32⟩
  | .hbm, ⟨19, _⟩ => ⟨S8192x1x1, .i32⟩
  | .hbm, ⟨20, _⟩ => ⟨S1, .i32⟩
  | .hbm, ⟨21, _⟩ => ⟨S_, .i32⟩
  | .hbm, ⟨22, _⟩ => ⟨S8192x1x1, .i32⟩
  | .hbm, ⟨23, _⟩ => ⟨S8192x1x1, .i1⟩
  | .hbm, ⟨24, _⟩ => ⟨S1x1x1, .i32⟩
  | .hbm, ⟨25, _⟩ => ⟨S8192x1x1, .i32⟩
  | .hbm, ⟨26, _⟩ => ⟨S8192x1x1, .i1⟩
  | .hbm, ⟨27, _⟩ => ⟨S8192x1x1, .i1⟩
  | .hbm, ⟨28, _⟩ => ⟨S_, .i1⟩
  | .hbm, ⟨29, _⟩ => ⟨S8192x1, .i1⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S512x3200, .f32⟩
  | .local _ .vmem, ⟨1, _⟩ => ⟨S512x3200, .f32⟩
  | .local _ .vmem, ⟨2, _⟩ => ⟨S512x1, .f32⟩
  | .local _ .vmem, ⟨3, _⟩ => ⟨S512x1, .f32⟩
  | .local _ .vmem, ⟨4, _⟩ => ⟨S512x1, .f32⟩
  | .local _ .vmem, ⟨5, _⟩ => ⟨S512x1, .f32⟩
  | _, _ => ⟨S8192x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_call1_c : Ref sig .tc := ⟨.hbm, 12, rfl⟩
abbrev main_call1_v0 : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_c_1 : Ref sig .tc := ⟨.hbm, 20, rfl⟩
abbrev main_call1_c_2 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_3 : Ref sig .tc := ⟨.hbm, 28, rfl⟩
abbrev main_call1_v12 : Ref sig .tc := ⟨.hbm, 29, rfl⟩
abbrev main_call1_v13 : Ref sig .tc := ⟨.hbm, 30, rfl⟩
abbrev main_call1_cst : Ref sig .tc := ⟨.hbm, 31, rfl⟩
abbrev main_call1_v14 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst : Ref sig .tc := ⟨.hbm, 37, rfl⟩
abbrev main_v7 : Ref sig .tc := ⟨.hbm, 38, rfl⟩
abbrev main_cst_1 : Ref sig .tc := ⟨.hbm, 39, rfl⟩
abbrev main_v8 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 10], ![false, false]⟩

def k0_cond2 (i : grid0.Coords) : BitVec 1 :=
  let arg1 : BitVec 32 := BitVec.ofNat 32 (i 1).val
  let c9_i32 : BitVec 32 := 9#32
  let v24 : BitVec 1 := Scalar.cmpi .eq arg1 c9_i32
  let v25 : BitVec 32 := Scalar.extui v24
  let c0_i32_11 : BitVec 32 := 0#32
  let v26 : BitVec 1 := Scalar.cmpi .ne v25 c0_i32_11
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x3200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x3200_S512x3200_0_0 : ∀ a, (![0, 0] : Fin 2 → Nat) a + S512x3200.size a ≤ S512x3200.size a
  h_S512x3200 : 0 < S512x3200.numel
  reduces_S512x3200_S512 : S512x3200.Reduces [1] S512
  shapeCasts_S512_S512x1 : S512.ShapeCasts S512x1
  broadcasts_S512x1_S512x3200 : S512x1.Broadcasts S512x3200
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  h_S_ : 0 < S_.numel
  shapeCasts_S8192x1_S8192 : S8192x1.ShapeCasts S8192
  reducesTo_S8192_S_d0 : S8192.ReducesTo [0] S_
  gather_S8192x32000_S8192x1x1_S8192x1_n_1_0_0_1_2_11_wf : GatherDims.WF S8192x32000 S8192x1x1 S8192x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3200.size a ≤ S8192x32000.size a
  hwx0_0 : ∀ i : grid0.Coords, EltTy.bits .f32 = 32 ∨ (Rect.block (s := S8192x32000) S512x3200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

abbrev win0_0 : Pipeline.Window sig grid0 :=
  Pipeline.Window.ofSpec (Memref.whole main_arg0) S512x3200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8192x32000 : Shape := ⟨2, ![8192, 32000]⟩
abbrev S8192 : Shape := ⟨1, ![8192]⟩
abbrev S_ : Shape := ⟨0, ![]⟩
abbrev S8192x1 : Shape := ⟨2, ![8192, 1]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 46
  | .vmem => 0
  | .smem => 0
  | _ => 0

abbrev bufTy : (tb : Table) → Fin (tcTables nBuf tb) → BufTy
  | .hbm, ⟨0, _⟩ => ⟨S8192x32000, .f32⟩
  | .hbm, ⟨1, _⟩ => ⟨S8192, .i32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x32000, .f32⟩
  | .hbm, ⟨9, _⟩ => ⟨S8192x32000, .f32⟩
  | .hbm, ⟨10, _⟩ => ⟨S8192x32000, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x1, .f32⟩
  | .hbm, ⟨15, _⟩ => ⟨S8192x32000, .f32⟩
  | .hbm, ⟨16, _⟩ => ⟨S8192x32000, .f32⟩
  | .hbm, ⟨17, _⟩ => ⟨S8192x1, .i32⟩
  | .hbm, ⟨18, _⟩ => ⟨S_, .i32⟩
  | .hbm, ⟨19, _⟩ => ⟨S8192x1, .i32⟩
  | .hbm, ⟨20, _⟩ => ⟨S8192x1, .i1⟩
  | .hbm, ⟨21, _⟩ => ⟨S_, .i32⟩
  | .hbm, ⟨22, _⟩ => ⟨S8192x1, .i32⟩
  | .hbm, ⟨23, _⟩ => ⟨S8192x1, .i32⟩
  | .hbm, ⟨24, _⟩ => ⟨S8192x1, .i32⟩
  | .hbm, ⟨25, _⟩ => ⟨S8192x1x1, .i32⟩
  | .hbm, ⟨26, _⟩ => ⟨S1, .i32⟩
  | .hbm, ⟨27, _⟩ => ⟨S_, .i32⟩
  | .hbm, ⟨28, _⟩ => ⟨S8192x1x1, .i32⟩
  | .hbm, ⟨29, _⟩ => ⟨S8192x1x1, .i1⟩
  | .hbm, ⟨30, _⟩ => ⟨S1x1x1, .i32⟩
  | .hbm, ⟨31, _⟩ => ⟨S8192x1x1, .i32⟩
  | .hbm, ⟨32, _⟩ => ⟨S8192x1x1, .i1⟩
  | .hbm, ⟨33, _⟩ => ⟨S8192x1x1, .i1⟩
  | .hbm, ⟨34, _⟩ => ⟨S_, .i1⟩
  | .hbm, ⟨35, _⟩ => ⟨S8192x1, .i1⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | _, _ => ⟨S8192x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_call0_cst_0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_cst_1 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_v0 : Ref sig .tc := ⟨.hbm, 16, rfl⟩
abbrev main_v1 : Ref sig .tc := ⟨.hbm, 17, rfl⟩
abbrev main_call1_c : Ref sig .tc := ⟨.hbm, 18, rfl⟩
abbrev main_call1_v0 : Ref sig .tc := ⟨.hbm, 19, rfl⟩
abbrev main_call1_v1 : Ref sig .tc := ⟨.hbm, 20, rfl⟩
abbrev main_call1_c_0 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_c_1 : Ref sig .tc := ⟨.hbm, 26, rfl⟩
abbrev main_call1_c_2 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_v9 : Ref sig .tc := ⟨.hbm, 31, rfl⟩
abbrev main_call1_v10 : Ref sig .tc := ⟨.hbm, 32, rfl⟩
abbrev main_call1_v11 : Ref sig .tc := ⟨.hbm, 33, rfl⟩
abbrev main_call1_c_3 : Ref sig .tc := ⟨.hbm, 34, rfl⟩
abbrev main_call1_v12 : Ref sig .tc := ⟨.hbm, 35, rfl⟩
abbrev main_call1_v13 : Ref sig .tc := ⟨.hbm, 36, rfl⟩
abbrev main_call1_cst : Ref sig .tc := ⟨.hbm, 37, rfl⟩
abbrev main_call1_v14 : Ref sig .tc := ⟨.hbm, 38, rfl⟩
abbrev main_v2 : Ref sig .tc := ⟨.hbm, 39, rfl⟩
abbrev main_v3 : Ref sig .tc := ⟨.hbm, 40, rfl⟩
abbrev main_cst : Ref sig .tc := ⟨.hbm, 41, rfl⟩
abbrev main_v4 : Ref sig .tc := ⟨.hbm, 42, rfl⟩
abbrev main_v5 : Ref sig .tc := ⟨.hbm, 43, rfl⟩
abbrev main_cst_0 : Ref sig .tc := ⟨.hbm, 44, rfl⟩
abbrev main_v6 : Ref sig .tc := ⟨.hbm, 45, rfl⟩

abbrev nD : Nat := 1
abbrev τ : Topo := Topo.v7x

variable {F : FTy → Type} [FloatOps F]

class Facts₀ : Prop where
  reducesTo_S8192x32000_S8192_d1 : S8192x32000.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x32000_0_1 : S8192x1.BroadcastsInDim S8192x32000 (![0, 1] : Fin 2 → Fin S8192x32000.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  gather_S8192x32000_S8192x1x1_S8192x1_n_1_0_0_1_2_11_wf : GatherDims.WF S8192x32000 S8192x1x1 S8192x1 [] [1] [0] [1] [0] 2 ![1, 1]

variable [Facts₀]

def gather_S8192x32000_S8192x1x1_S8192x1_n_1_0_0_1_2_11 : GatherDims S8192x32000 S8192x1x1 S8192x1 where
  offsetDims := []
  collapsedSliceDims := [1]
  operandBatchingDims := [0]
  startIndicesBatchingDims := [0]
  startIndexMap := [1]
  indexVectorDim := 2
  sliceSizes := ![1, 1]
  wf := gather_S8192x32000_S8192x1x1_S8192x1_n_1_0_0_1_2_11_wf

class Facts : Prop extends Facts₀ where

variable [Facts]
-- ==== Proof.PreFacts.lean ====
/-
  What the precondition says, entry by entry: every logit is a real number, and every label, read as a signed
  number, is a class index, that is, it lies in [0, 32000).

  The precondition is the conjunction of two all-true reductions. The first runs over the logits and asks that the
  absolute value of each, the larger of the entry and its negation, is strictly below +∞: that excludes +∞ and -∞ and
  leaves the reals. The second runs over the labels and asks, in the signed order on 32-bit words, that each is at
  least 0 and strictly below 32000.
-/
import proofs.«400259_j7292854469120_3_alg».proof.Pre_finite_inputs
import Idealize.ShloMosaic.PureOps.Ideal
import Idealize.ShloMosaic.Lib.ReduceAll
import Idealize.ShloMosaic.Lib.ValueIdx
import Idealize.ShloMosaic.Lib.Affine
import Idealize.ShloMosaic.Lib.StableHlo.Predicate

noncomputable section

namespace Cert.PreFacts

open Idealize.ShloMosaic Cert.Pre_finite_inputs Cert.Pre_finite_inputs.Facts

variable [Cert.Pre_finite_inputs.Facts]

instance : Subsingleton S_.Idx := ⟨fun a b => funext fun d => d.elim0⟩

/-- An extended real whose absolute value is strictly below +∞ is a real number. -/
theorem real_of_abs_lt_top {a : EReal} (h : max a (-a) < ⊤) : ∃ r : ℝ, a = (r : EReal) := by
  have h1 : a < ⊤ := lt_of_le_of_lt (le_max_left _ _) h
  have h2 : -a < ⊤ := lt_of_le_of_lt (le_max_right _ _) h
  have hb : a ≠ ⊥ := by
    rintro rfl
    simp at h2
  exact ⟨a.toReal, (EReal.coe_toReal h1.ne hb).symm⟩

/-- The two all-true reductions, opened: the mask of the logits and the mask of the labels are 1 at every index. -/
theorem masks_of_pre (x : FVec Ideal S8192x32000 .f32) (t : IVec S8192 32) (h : fn (F := Ideal) x t = fun _ => 1#1) :
    (∀ i, cmpf .olt (Host.absf x) (broadcastInDim S8192x32000 ![] bcast_S_S8192x32000 (constant S_ .f32 0x7F800000#32)) i = 1#1)
    ∧ ∀ b, andi (cmpi .sge t (broadcastInDim S8192 ![] bcast_S_S8192 (constantI S_ 32 0#32)))
            (cmpi .slt t (broadcastInDim S8192 ![] bcast_S_S8192 (constantI S_ 32 32000#32))) b = 1#1 := by
  have h0 := congrFun h ValueIdx.ix0
  dsimp only [fn] at h0
  obtain ⟨h1, h2⟩ := IntOp.andi_eq_one.mp h0
  exact ⟨Host.reduce_andi_all _ _ _ _ _ h1, Host.reduce_andi_all _ _ _ _ _ h2⟩

/-- Under the precondition every logit is a real number. -/
theorem real_of_pre (x : FVec Ideal S8192x32000 .f32) (t : IVec S8192 32) (h : fn (F := Ideal) x t = fun _ => 1#1)
    (i : S8192x32000.Idx) : ∃ r : ℝ, x i = (r : EReal) := by
  have e := (masks_of_pre x t h).1 i
  apply real_of_abs_lt_top
  have hb : broadcastInDim S8192x32000 ![] bcast_S_S8192x32000 (constant (F := Ideal) S_ .f32 0x7F800000#32) i = (⊤ : EReal) := by
    rw [StableHlo.Predicate.bcast_scalar _ h_S_]
    simp [constant, Ideal.ofBits, Ideal.ieee]
  have e' : Ideal.cmp .olt (max (x i) (-(x i))) ⊤ = 1#1 := by
    rw [← hb]
    exact e
  simp only [Ideal.cmp, StableHlo.Predicate.ofBool_eq_one_iff, decide_eq_true_eq] at e'
  exact e'

/-- Under the precondition every label, as a signed number, lies in [0, 32000). -/
theorem label_of_pre (x : FVec Ideal S8192x32000 .f32) (t : IVec S8192 32) (h : fn (F := Ideal) x t = fun _ => 1#1)
    (b : S8192.Idx) : 0 ≤ (t b).toInt ∧ (t b).toInt < 32000 := by
  have e := (masks_of_pre x t h).2 b
  obtain ⟨e1, e2⟩ := IntOp.andi_eq_one.mp e
  have z : broadcastInDim S8192 ![] bcast_S_S8192 (constantI S_ 32 0#32) b = 0#32 := by
    rw [StableHlo.Predicate.bcast_scalar _ h_S_]; rfl
  have n : broadcastInDim S8192 ![] bcast_S_S8192 (constantI S_ 32 32000#32) b = 32000#32 := by
    rw [StableHlo.Predicate.bcast_scalar _ h_S_]; rfl
  have e1' : IntOp.cmpi .sge (t b) 0#32 = 1#1 := by rw [← z]; exact e1
  have e2' : IntOp.cmpi .slt (t b) 32000#32 = 1#1 := by rw [← n]; exact e2
  have h0 : (0#32 : BitVec 32).toInt = 0 := by decide
  have hn : (32000#32 : BitVec 32).toInt = 32000 := by decide
  constructor
  · have := (StableHlo.Predicate.ofBool_eq_one_iff _).mp e1'
    simp only [BitVec.sle, decide_eq_true_eq] at this
    rw [h0] at this; exact this
  · have := (StableHlo.Predicate.ofBool_eq_one_iff _).mp e2'
    simp only [BitVec.slt, decide_eq_true_eq] at this
    rw [hn] at this; exact this

end Cert.PreFacts

end
-- ==== Proof.KernelPieces.lean ====
/- What each of the kernel's three control cases leaves in the two carried columns (the running maximum and the
   running sum) and in the output block, as the body's payloads: the case that starts a row block resets both columns
   and then updates them from the reset values; the other two update them from the values the point before left; the
   case that ends a row block also writes the output from the two columns as it has just updated them. -/
import proofs.«400259_j7292854469120_3_alg».proof.Proof.Gen.KernelIdeal.Frame
import Idealize.ShloMosaic.Lib.Pipeline.Value

set_option maxRecDepth 16384
noncomputable section
namespace Cert.KernelIdeal.Pieces
open Cert.KernelIdeal Cert.KernelIdeal.Gen Idealize.ShloMosaic Idealize.ShloMosaic.TcCoe Idealize.ShloMosaic.Tactic Idealize.SL.Sem
variable {F : FTy → Type} [FloatOps F]

/-- the offsets of a whole column are zero -/
theorem hzc : (![0, 0] : Fin S512x1.rank → ℕ) = fun _ => 0 := by funext a; fin_cases a <;> rfl
/-- the offsets of a whole tile are zero -/
theorem hzt : (![0, 0] : Fin S512x3200.rank → ℕ) = fun _ => 0 := by funext a; fin_cases a <;> rfl

/-! ## The case that starts a row block: both columns are reset, and the update reads the reset values back -/

theorem sout_A_0 (c : Dev nD) (i : grid0.Coords) (arg2) (harg2) (arg3) (harg3) (arg4) (harg4) (arg5) (harg5) (hc0) (hc1) (x0 : Vec F S512x3200 .f32) :
    sout0_A_0 (F := F) c i arg2 harg2 arg3 harg3 arg4 harg4 arg5 harg5 hc0 hc1 x0 = k0_pay5 x0 (k0_pay1 (F := F)) := by
  unfold sout0_A_0
  rw [View.read_writes_eq_canon _ _ _ (scover0_A_0 c i arg2 harg2 arg3 harg3 arg4 harg4 arg5 harg5 hc0 hc1 x0)]
  unfold kernelRun0_A
  dsimp only
  sl_unfold_words
  rw [View.canon_cons_unit_zero (S := S512x1) hzc, View.readCov_unit_zero (S := S512x1) _ hzc]
  simp only [View.readAt_eq_ld, harg2.read_unread, View.ld_unit_zero (S := S512x3200) hzt]

theorem sout_A_1 (c : Dev nD) (i : grid0.Coords) (arg2) (harg2) (arg3) (harg3) (arg4) (harg4) (arg5) (harg5) (hc0) (hc1) (x0 : Vec F S512x3200 .f32) :
    sout0_A_1 (F := F) c i arg2 harg2 arg3 harg3 arg4 harg4 arg5 harg5 hc0 hc1 x0 = k0_pay4 x0 (k0_pay1 (F := F)) (k0_pay2 (F := F)) := by
  unfold sout0_A_1
  rw [View.read_writes_eq_canon _ _ _ (scover0_A_1 c i arg2 harg2 arg3 harg3 arg4 harg4 arg5 harg5 hc0 hc1 x0)]
  unfold kernelRun0_A
  dsimp only
  sl_unfold_words
  rw [View.canon_cons_unit_zero (S := S512x1) hzc, View.readCov_unit_zero (S := S512x1) _ hzc,
    View.readCov_unit_zero (S := S512x1) _ hzc]
  simp only [View.readAt_eq_ld, harg2.read_unread, View.ld_unit_zero (S := S512x3200) hzt]

/-! ## The case in the middle of a row block: both columns are updated from what the point before left -/

theorem sout_B_0 (c : Dev nD) (i : grid0.Coords) (arg2) (harg2) (arg3) (harg3) (arg4) (harg4) (arg5) (harg5) (hc0) (hc1) (x0 : Vec F S512x3200 .f32) (xs0 xs1 : Vec F S512x1 .f32) :
    sout0_B_0 (F := F) c i arg2 harg2 arg3 harg3 arg4 harg4 arg5 harg5 hc0 hc1 x0 xs0 xs1 = k0_pay5 x0 xs0 := by
  unfold sout0_B_0
  rw [View.read_writes_eq_canon _ _ _ (scover0_B_0 c i arg2 harg2 arg3 harg3 arg4 harg4 arg5 harg5 hc0 hc1 x0 xs0 xs1)]
  unfold kernelRun0_B
  dsimp only
  sl_unfold_words
  rw [View.canon_unit_zero (S := S512x1) hzc]
  simp only [View.readAt_eq_ld, harg2.read_unread, harg4.read_unread, harg5.read_unread,
    View.ld_unit_zero (S := S512x3200) hzt, View.ld_unit_zero (S := S512x1) hzc]

theorem sout_B_1 (c : Dev nD) (i : grid0.Coords) (arg2) (harg2) (arg3) (harg3) (arg4) (harg4) (arg5) (harg5) (hc0) (hc1) (x0 : Vec F S512x3200 .f32) (xs0 xs1 : Vec F S512x1 .f32) :
    sout0_B_1 (F := F) c i arg2 harg2 arg3 harg3 arg4 harg4 arg5 harg5 hc0 hc1 x0 xs0 xs1 = k0_pay4 x0 xs0 xs1 := by
  unfold sout0_B_1
  rw [View.read_writes_eq_canon _ _ _ (scover0_B_1 c i arg2 harg2 arg3 harg3 arg4 harg4 arg5 harg5 hc0 hc1 x0 xs0 xs1)]
  unfold kernelRun0_B
  dsimp only
  sl_unfold_words
  rw [View.canon_unit_zero (S := S512x1) hzc]
  simp only [View.readAt_eq_ld, harg2.read_unread, harg4.read_unread, harg5.read_unread,
    View.ld_unit_zero (S := S512x3200) hzt, View.ld_unit_zero (S := S512x1) hzc]

/-! ## The case that ends a row block: the same update, and the output is written from the updated columns -/

theorem sout_C_0 (c : Dev nD) (i : grid0.Coords) (arg2) (harg2) (arg3) (harg3) (arg4) (harg4) (arg5) (harg5) (hc0) (hc1) (x0 : Vec F S512x3200 .f32) (xs0 xs1 : Vec F S512x1 .f32) :
    sout0_C_0 (F := F) c i arg2 harg2 arg3 harg3 arg4 harg4 arg5 harg5 hc0 hc1 x0 xs0 xs1 = k0_pay5 x0 xs0 := by
  unfold sout0_C_0
  rw [View.read_writes_eq_canon _ _ _ (scover0_C_0 c i arg2 harg2 arg3 harg3 arg4 harg4 arg5 harg5 hc0 hc1 x0 xs0 xs1)]
  unfold kernelRun0_C
  dsimp only
  sl_unfold_words
  rw [View.canon_unit_zero (S := S512x1) hzc]
  simp only [View.readAt_eq_ld, harg2.read_unread, harg4.read_unread, harg5.read_unread,
    View.ld_unit_zero (S := S512x3200) hzt, View.ld_unit_zero (S := S512x1) hzc]

theorem sout_C_1 (c : Dev nD) (i : grid0.Coords) (arg2) (harg2) (arg3) (harg3) (arg4) (harg4) (arg5) (harg5) (hc0) (hc1) (x0 : Vec F S512x3200 .f32) (xs0 xs1 : Vec F S512x1 .f32) :
    sout0_C_1 (F := F) c i arg2 harg2 arg3 harg3 arg4 harg4 arg5 harg5 hc0 hc1 x0 xs0 xs1 = k0_pay4 x0 xs0 xs1 := by
  unfold sout0_C_1
  rw [View.read_writes_eq_canon _ _ _ (scover0_C_1 c i arg2 harg2 arg3 harg3 arg4 harg4 arg5 harg5 hc0 hc1 x0 xs0 xs1)]
  unfold kernelRun0_C
  dsimp only
  sl_unfold_words
  rw [View.canon_unit_zero (S := S512x1) hzc]
  simp only [View.readAt_eq_ld, harg2.read_unread, harg4.read_unread, harg5.read_unread,
    View.ld_unit_zero (S := S512x3200) hzt, View.ld_unit_zero (S := S512x1) hzc]

theorem out_C_1 (c : Dev nD) (i : grid0.Coords) (arg2) (harg2) (arg3) (harg3) (arg4) (harg4) (arg5) (harg5) (hc0) (hc1) (x0 : Vec F S512x3200 .f32) (xs0 xs1 : Vec F S512x1 .f32) :
    out0_C_1 (F := F) c i arg2 harg2 arg3 harg3 arg4 harg4 arg5 harg5 hc0 hc1 x0 xs0 xs1 = k0_pay6 (k0_pay5 x0 xs0) (k0_pay4 x0 xs0 xs1) := by
  unfold out0_C_1
  rw [View.read_writes_eq_canon _ _ _ (cover0_C_1 c i arg2 harg2 arg3 harg3 arg4 harg4 arg5 harg5 hc0 hc1 x0 xs0 xs1)]
  unfold kernelRun0_C
  dsimp only
  sl_unfold_words
  rw [View.canon_unit_zero (S := S512x1) hzc]
  simp only [View.readCov_unit_zero (S := S512x1) _ hzc, View.readAt_eq_ld, harg2.read_unread, harg4.read_unread,
    harg5.read_unread, View.ld_unit_zero (S := S512x3200) hzt, View.ld_unit_zero (S := S512x1) hzc]

end Cert.KernelIdeal.Pieces
end
-- ==== Proof.LibOnlineSoftmax.lean ====
/-
  The logarithm of a sum of exponentials, computed two ways over the reals.

  A row of logits is cut into tiles. One way keeps a running maximum and a running sum: passing a tile replaces the
  maximum by the larger of itself and the tile's maximum, rescales the sum by the exponential of the difference of the
  old and the new maximum, and adds the exponentials of the tile's entries taken against the new maximum. The other way
  subtracts the maximum of the whole row once. Both give the logarithm of the sum of the exponentials of the row.

  The last part carries finite sums, a positive logarithm and the maximum of a tile to the extended reals.
-/
import Idealize.ShloMosaic.PureOps.Ideal
import Mathlib.Analysis.SpecialFunctions.Log.Basic
import Mathlib.Algebra.BigOperators.Group.Finset.Basic
import Mathlib.Algebra.BigOperators.Group.Finset.Piecewise
import Mathlib.Algebra.Order.BigOperators.Group.Finset
import Mathlib.Data.Fintype.BigOperators
import Mathlib.Data.Finset.Lattice.Fold
import Mathlib.Data.EReal.Basic

noncomputable section

namespace Cert.LibOnline

open scoped BigOperators

variable {w : ℕ} [NeZero w]

/-- The maximum of a nonempty tile. -/
def tileMax (g : Fin w → ℝ) : ℝ := Finset.univ.sup' Finset.univ_nonempty g

/-- The running maximum after `j` tiles, started from the finite number `m₀`. -/
def onlineM (f : ℕ → Fin w → ℝ) (m₀ : ℝ) : ℕ → ℝ
  | 0 => m₀
  | j + 1 => max (onlineM f m₀ j) (tileMax (f j))

/-- The running sum after `j` tiles: the old sum rescaled to the new maximum, plus the exponentials of the new
    tile's entries against the new maximum; it starts from zero. -/
def onlineS (f : ℕ → Fin w → ℝ) (m₀ : ℝ) : ℕ → ℝ
  | 0 => 0
  | j + 1 => onlineS f m₀ j * Real.exp (onlineM f m₀ j - onlineM f m₀ (j + 1))
      + ∑ k : Fin w, Real.exp (f j k - onlineM f m₀ (j + 1))

/-- Every entry of a tile is at most the tile's maximum. -/
theorem le_tileMax (g : Fin w → ℝ) (k : Fin w) : g k ≤ tileMax g :=
  Finset.le_sup' g (Finset.mem_univ k)

/-- The maximum of a tile is one of its entries. -/
theorem exists_eq_tileMax (g : Fin w → ℝ) : ∃ k : Fin w, tileMax g = g k := by
  obtain ⟨k, _, hk⟩ := Finset.exists_mem_eq_sup' Finset.univ_nonempty g
  exact ⟨k, hk⟩

/-- The running sum after `j` tiles is the sum of the exponentials of all entries of those tiles, each taken
    against the current running maximum: `s_j = ∑_{j' < j} ∑_k exp (f j' k - m_j)`. -/
theorem onlineS_eq (f : ℕ → Fin w → ℝ) (m₀ : ℝ) (j : ℕ) :
    onlineS f m₀ j = ∑ j' ∈ Finset.range j, ∑ k : Fin w, Real.exp (f j' k - onlineM f m₀ j) := by
  induction j with
  | zero => simp [onlineS]
  | succ j ih =>
    rw [onlineS, ih, Finset.sum_range_succ, Finset.sum_mul]
    congr 1
    refine Finset.sum_congr rfl fun j' _ => ?_
    rw [Finset.sum_mul]
    refine Finset.sum_congr rfl fun k _ => ?_
    rw [← Real.exp_add]
    congr 1
    ring

/-- After at least one tile the running sum is positive. -/
theorem onlineS_pos (f : ℕ → Fin w → ℝ) (m₀ : ℝ) {j : ℕ} (hj : 0 < j) : 0 < onlineS f m₀ j := by
  rw [onlineS_eq]
  refine Finset.sum_pos (fun j' _ => ?_) ⟨0, Finset.mem_range.2 hj⟩
  exact Finset.sum_pos (fun k _ => Real.exp_pos _) Finset.univ_nonempty

/-- The running maximum plus the logarithm of the running sum is the logarithm of the sum of the exponentials:
    `m_n + log s_n = log (∑_{j < n} ∑_k exp (f j k))`, whatever finite number the maximum started from. -/
theorem online_lse (f : ℕ → Fin w → ℝ) (m₀ : ℝ) {n : ℕ} (hn : 0 < n) :
    onlineM f m₀ n + Real.log (onlineS f m₀ n)
      = Real.log (∑ j ∈ Finset.range n, ∑ k : Fin w, Real.exp (f j k)) := by
  have hS : 0 < onlineS f m₀ n := onlineS_pos f m₀ hn
  have hprod : (∑ j ∈ Finset.range n, ∑ k : Fin w, Real.exp (f j k))
      = Real.exp (onlineM f m₀ n) * onlineS f m₀ n := by
    rw [onlineS_eq, Finset.mul_sum]
    refine Finset.sum_congr rfl fun j _ => ?_
    rw [Finset.mul_sum]
    refine Finset.sum_congr rfl fun k _ => ?_
    rw [← Real.exp_add]
    congr 1
    ring
  rw [hprod, Real.log_mul (Real.exp_ne_zero _) hS.ne', Real.log_exp]

/-- Subtracting the maximum once: `max g + log (∑_v exp (g v - max g)) = log (∑_v exp (g v))`. -/
theorem shifted_lse {N : ℕ} [NeZero N] (g : Fin N → ℝ) :
    tileMax g + Real.log (∑ v : Fin N, Real.exp (g v - tileMax g)) = Real.log (∑ v : Fin N, Real.exp (g v)) := by
  have hS : 0 < ∑ v : Fin N, Real.exp (g v - tileMax g) :=
    Finset.sum_pos (fun v _ => Real.exp_pos _) Finset.univ_nonempty
  have hprod : (∑ v : Fin N, Real.exp (g v)) = Real.exp (tileMax g) * ∑ v : Fin N, Real.exp (g v - tileMax g) := by
    rw [Finset.mul_sum]
    refine Finset.sum_congr rfl fun v _ => ?_
    rw [← Real.exp_add]
    congr 1
    ring
  rw [hprod, Real.log_mul (Real.exp_ne_zero _) hS.ne', Real.log_exp]

/-- `n` tiles of `c` entries are the first `c * n` entries. -/
theorem sum_tiles_range (c : ℕ) (G : ℕ → ℝ) (n : ℕ) :
    ∑ j ∈ Finset.range n, ∑ k : Fin c, G (c * j + k.val) = ∑ v ∈ Finset.range (c * n), G v := by
  induction n with
  | zero => simp
  | succ n ih =>
    rw [Finset.sum_range_succ, ih, Nat.mul_succ, Finset.sum_range_add, Fin.sum_univ_eq_sum_range (fun k => G (c * n + k)) c]

/-- 25 tiles of 1280 are the 32000 entries. -/
theorem sum_tiles (G : ℕ → ℝ) :
    ∑ j ∈ Finset.range 25, ∑ k : Fin 1280, G (1280 * j + k.val) = ∑ v : Fin 32000, G v.val := by
  rw [sum_tiles_range 1280 G 25, Fin.sum_univ_eq_sum_range G 32000]

/-- A one-hot sum picks its entry: for `id < 32000` the sum over all entries of the entry at `id` and zero elsewhere is
    the entry at `id`. -/
theorem sum_onehot (G : ℕ → ℝ) {id : ℕ} (hid : id < 32000) :
    ∑ j ∈ Finset.range 25, ∑ k : Fin 1280, (if 1280 * j + k.val = id then G (1280 * j + k.val) else 0) = G id := by
  rw [sum_tiles_range 1280 (fun v => if v = id then G v else 0) 25, Finset.sum_ite_eq']
  simp [hid]

/-! ### To the extended reals -/

/-- The extended real of a finite sum of reals is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The extended logarithm of a positive real is the real logarithm. -/
theorem ideal_log_coe_pos {r : ℝ} (h : 0 < r) : Idealize.ShloMosaic.Ideal.log (r : EReal) = (Real.log r : EReal) := by
  rw [Idealize.ShloMosaic.Ideal.log_coe, if_neg (not_le.mpr h)]

/-- The supremum, from `⊥`, of a tile of reals read as extended reals is the tile's maximum. -/
theorem coe_tileMax (g : Fin w → ℝ) : (Finset.univ.sup fun k => ((g k : ℝ) : EReal)) = ((tileMax g : ℝ) : EReal) := by
  apply le_antisymm
  · exact Finset.sup_le fun k _ => EReal.coe_le_coe_iff.2 (le_tileMax g k)
  · obtain ⟨k, hk⟩ := exists_eq_tileMax g
    rw [hk]
    exact Finset.le_sup (f := fun k => ((g k : ℝ) : EReal)) (Finset.mem_univ k)

/-- Folding the maximum over a tile, started from `⊥`, gives the tile's maximum. -/
theorem fold_max_coe (g : Fin w → ℝ) :
    Finset.univ.fold max (⊥ : EReal) (fun k => ((g k : ℝ) : EReal)) = ((tileMax g : ℝ) : EReal) := by
  rw [← coe_tileMax g]
  rfl

end Cert.LibOnline

end
-- ==== Proof.LossSpec.lean ====
/-
  The loss both programs compute, as one function of the logits and the labels over the reals.

  For a batch of 8192 rows of 32000 logits and one label per row, the mean negative log-likelihood of the softmax is
  the mean over the rows of `lse(row) - row[label]`, where `lse` is the logarithm of the sum of the exponentials of the row.

  One program reaches `lse` tile by tile: ten tiles of 3200 logits, a running maximum started from a finite number and a
  running sum rescaled whenever the maximum moves; the maximum plus the logarithm of the sum is `lse` whatever finite
  number the maximum started from. The other subtracts the row's maximum once, so its log-probability at the label is
  `(row[label] - max) - log (sum exp (row - max))`, which is `row[label] - lse`.
-/
import proofs.«400259_j7292854469120_3_alg».proof.Proof.LibOnlineSoftmax

noncomputable section

namespace Cert.LossSpec

open scoped BigOperators
open Cert.LibOnline

/-- The logarithm of the sum of the exponentials of a row of 32000 logits. -/
def rowLse (g : Fin 32000 → ℝ) : ℝ := Real.log (∑ v : Fin 32000, Real.exp (g v))

/-- The loss: the mean over the 8192 rows of the row's log-sum-exp minus the row's logit at its label. -/
def loss (x : Fin 8192 → Fin 32000 → ℝ) (lab : Fin 8192 → Fin 32000) : ℝ :=
  (∑ b : Fin 8192, (rowLse (x b) - x b (lab b))) / 8192

/-- Entry `k` of tile `j` of a row read as ten tiles of 3200 (entries past the row's end read as zero; no tile
    reaches them). -/
def tile (g : Fin 32000 → ℝ) (j : ℕ) (k : Fin 3200) : ℝ :=
  if h : 3200 * j + k.val < 32000 then g ⟨3200 * j + k.val, h⟩ else 0

/-- Ten tiles of 3200 are the 32000 entries of the row. -/
theorem sum_ten_tiles (g : Fin 32000 → ℝ) :
    ∑ j ∈ Finset.range 10, ∑ k : Fin 3200, Real.exp (tile g j k) = ∑ v : Fin 32000, Real.exp (g v) := by
  -- the row's exponentials as a function on the naturals, zero past the row's end
  let G : ℕ → ℝ := fun v => if h : v < 32000 then Real.exp (g ⟨v, h⟩) else 0
  have hrow : ∑ v : Fin 32000, Real.exp (g v) = ∑ v ∈ Finset.range (3200 * 10), G v := by
    rw [show 3200 * 10 = 32000 from rfl, ← Fin.sum_univ_eq_sum_range G 32000]
    exact Finset.sum_congr rfl fun v _ => by simp only [G, v.isLt, dif_pos]
  rw [hrow, ← sum_tiles_range 3200 G 10]
  refine Finset.sum_congr rfl fun j hj => Finset.sum_congr rfl fun k _ => ?_
  have hlt : 3200 * j + k.val < 32000 := by
    have hj' := Finset.mem_range.1 hj
    have hk := k.isLt
    omega
  simp only [G, tile, hlt, dif_pos]

/-- The running maximum after the ten tiles plus the logarithm of the running sum is the row's log-sum-exp, whatever
    finite number the maximum started from. -/
theorem online_rowLse (g : Fin 32000 → ℝ) (m₀ : ℝ) :
    onlineM (tile g) m₀ 10 + Real.log (onlineS (tile g) m₀ 10) = rowLse g := by
  rw [online_lse (tile g) m₀ (by norm_num : 0 < 10), sum_ten_tiles, rowLse]

/-- Subtracting the row's maximum once: the log-probability at entry `t` is the entry minus the row's log-sum-exp. -/
theorem shifted_logprob (g : Fin 32000 → ℝ) (t : Fin 32000) :
    (g t - tileMax g) - Real.log (∑ v : Fin 32000, Real.exp (g v - tileMax g)) = g t - rowLse g := by
  have h := shifted_lse g
  rw [rowLse, ← h]
  ring

/-- The mean of the negated log-probabilities at the labels is the loss. -/
theorem neg_mean_logprob (x : Fin 8192 → Fin 32000 → ℝ) (lab : Fin 8192 → Fin 32000) :
    -(∑ b : Fin 8192, (x b (lab b) - rowLse (x b))) / 8192 = loss x lab := by
  rw [loss, ← Finset.sum_neg_distrib]
  congr 1
  exact Finset.sum_congr rfl fun b _ => by ring

end Cert.LossSpec

end
-- ==== Proof.KernelPayRows.lean ====
/-
  The payloads of the kernel body read at one row, over the extended reals, for a block of reals and columns of reals.

  At row `p` the block holds the 3200 reals `X p`, the carried maximum column holds `M p` and the carried sum column
  holds `L p`. The new maximum is `max (M p) (max of X p)`; the new sum is `exp (M p - new maximum) * L p` plus the sum of
  `exp (X p k - new maximum)` over the row; the output is a maximum plus the logarithm of a positive sum; the reset
  values are a finite real for the maximum and zero for the sum. Every operation on the way meets real numbers only.
-/
import proofs.«400259_j7292854469120_3_alg».proof.Proof.Gen.KernelIdeal.Frame
import proofs.«400259_j7292854469120_3_alg».proof.Proof.LossSpec
import Idealize.ShloMosaic.PureOps.Ideal
import Idealize.ShloMosaic.PureOps.Ideal.Laws
import Idealize.ShloMosaic.Lib.ValueIdx
import Idealize.ShloMosaic.Lib.Pipeline.Value

set_option maxRecDepth 16384
noncomputable section
namespace Cert.KernelIdeal.PayRows
open Cert.KernelIdeal Cert.KernelIdeal.Gen Idealize.ShloMosaic Idealize.ShloMosaic.TcCoe Idealize.SL.Sem Cert.LibOnline
open scoped BigOperators

/-! ## The layout operations of the payloads, read at coordinates -/

section Layout
variable {α : Type}

/-- A vector of `a` entries viewed as a column `[a, 1]` reads, at `(i, u)`, the vector at `i`. -/
theorem shapeCast_a_a1_apply {a : ℕ} (v : (⟨1, ![a]⟩ : Shape).Idx → α) (h : (⟨1, ![a]⟩ : Shape).ShapeCasts ⟨2, ![a, 1]⟩)
    (i : Fin a) (u : Fin 1) : shapeCast ⟨2, ![a, 1]⟩ v h (ValueIdx.ix2 i u) = v (ValueIdx.ix1 i) :=
  shapeCast_apply v h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ValueIdx.ix2 p c) = v (ValueIdx.ix2 p (0 : Fin 1)) := by
  refine broadcastTo_apply v h (ValueIdx.ix2 p c) (ValueIdx.ix2 p (0 : Fin 1)) fun ax => ?_
  match ax with
  | ⟨0, _⟩ =>
    show p.val = if a = 1 then 0 else p.val
    split
    · have := p.isLt; omega
    · rfl
  | ⟨1, _⟩ => rfl

end Layout

/-- The index of row `p` of the block with coordinate `k` inserted on the reduced axis is `(p, k)`. -/
theorem lift_row (p : Fin 512) (k : Fin 3200) :
    reduces_S512x3200_S512.lift (ValueIdx.ix1 p) k = ValueIdx.ix2 p k := by
  funext c
  match c with
  | ⟨0, _⟩ => rfl
  | ⟨1, _⟩ => rfl

/-- The word of the maximum's accumulator is the least extended real. -/
theorem ofBits_neg_inf : Ideal.ofBits .f32 0xFF800000#32 = (⊥ : EReal) := by
  simp [Ideal.ofBits, Ideal.ieee]

/-! ## The exponential and the logarithm read at an index -/

section Pointwise
variable {s : Shape} {φ : FTy}

/-- An exponential at an index is the exponential of the element. -/
theorem exp_apply (a : FVec Ideal s φ) (i : s.Idx) : exp a i = Ideal.exp (a i) := rfl
/-- A logarithm at an index is the logarithm of the element. -/
theorem log_apply (a : FVec Ideal s φ) (i : s.Idx) : log a i = Ideal.log (a i) := rfl

end Pointwise

/-! ## The payloads as their chains of operations -/

theorem k0_pay3_eq (x : Vec Ideal S512x3200 .f32) (v6 : Vec Ideal S512x1 .f32) :
    k0_pay3 (F := Ideal) x v6
      = maximumf v6 (shapeCast S512x1
          (multiReduction (F := Ideal) .maximumf [1] S512 x 0xFF800000#32 reduces_S512x3200_S512 (.inl rfl) rfl)
          shapeCasts_S512_S512x1) := rfl

theorem k0_pay4_eq (x : Vec Ideal S512x3200 .f32) (v6 v15 : Vec Ideal S512x1 .f32) :
    k0_pay4 (F := Ideal) x v6 v15
      = shapeCast S512x1
          (addf (mulf (exp (subf v6 (k0_pay3 (F := Ideal) x v6))) v15)
            (shapeCast S512x1
              (multiReduction (F := Ideal) .add [1] S512
                (exp (subf x (broadcastTo S512x3200 (k0_pay3 (F := Ideal) x v6) broadcasts_S512x1_S512x3200)))
                0x00000000#32 reduces_S512x3200_S512 (.inl rfl) rfl)
              shapeCasts_S512_S512x1))
          shapeCasts_S512x1_S512x1 := rfl

theorem k0_pay5_eq (x : Vec Ideal S512x3200 .f32) (v6 : Vec Ideal S512x1 .f32) :
    k0_pay5 (F := Ideal) x v6 = shapeCast S512x1 (k0_pay3 (F := Ideal) x v6) shapeCasts_S512x1_S512x1 := rfl

theorem k0_pay6_eq (v27 v28 : Vec Ideal S512x1 .f32) : k0_pay6 (F := Ideal) v27 v28 = addf v27 (log v28) := rfl

theorem k0_pay1_eq :
    k0_pay1 (F := Ideal)
      = shapeCast S512x1 (broadcast S512x1 (Scalar.ofBits (F := Ideal) .f32 0xFF333332#32)) shapeCasts_S512x1_S512x1 := rfl

theorem k0_pay2_eq :
    k0_pay2 (F := Ideal)
      = shapeCast S512x1 (broadcast S512x1 (Scalar.ofBits (F := Ideal) .f32 0x00000000#32)) shapeCasts_S512x1_S512x1 := rfl

/-! ## The reductions over a row of the block -/

section Rows
variable (x : Vec Ideal S512x3200 .f32) (X : Fin 512 → Fin 3200 → ℝ) (hx : ∀ p q, x (ValueIdx.ix2 p q) = ((X p q : ℝ) : EReal))
include hx

/-- The maximum over row `p` of the block, started from the least extended real, is the tile's maximum. -/
theorem rowMax (p : Fin 512) :
    multiReduction (F := Ideal) .maximumf [1] S512 x 0xFF800000#32 reduces_S512x3200_S512 (.inl rfl) rfl (ValueIdx.ix1 p)
      = ((tileMax (X p) : ℝ) : EReal) := by
  refine (Ideal.multiReduction_maximumf_single (φ := .f32) (s := S512x3200) (t := S512) (a := 1) x 0xFF800000#32
    reduces_S512x3200_S512 (.inl rfl) rfl (ValueIdx.ix1 p)).trans ?_
  have hf : (x ∘ reduces_S512x3200_S512.lift (ValueIdx.ix1 p)) = fun k : Fin 3200 => ((X p k : ℝ) : EReal) :=
    funext fun k => (congrArg x (lift_row p k)).trans (hx p k)
  have hinit : FloatOps.ofBits (F := Ideal) .f32 0xFF800000#32 = (⊥ : EReal) := ofBits_neg_inf
  rw [hinit, hf]
  show (Finset.univ : Finset (Fin 3200)).fold max (⊥ : EReal) (fun k => ((X p k : ℝ) : EReal)) = _
  exact fold_max_coe (X p)

/-- The tile's maximum as a column entry. -/
theorem colMax (p : Fin 512) :
    shapeCast S512x1 (multiReduction (F := Ideal) .maximumf [1] S512 x 0xFF800000#32 reduces_S512x3200_S512 (.inl rfl) rfl)
      shapeCasts_S512_S512x1 (ValueIdx.ix2 p 0) = ((tileMax (X p) : ℝ) : EReal) := by
  have h1 := shapeCast_a_a1_apply (α := EReal) (a := 512)
    (multiReduction (F := Ideal) .maximumf [1] S512 x 0xFF800000#32 reduces_S512x3200_S512 (.inl rfl) rfl)
    shapeCasts_S512_S512x1 p 0
  have h2 := rowMax x X hx p
  exact Eq.trans h1 h2

/-- The sum over row `p` of the exponentials of the block's entries against a column of reals. -/
theorem rowSum (m : Vec Ideal S512x1 .f32) (mx : Fin 512 → ℝ) (hm : ∀ p, m (ValueIdx.ix2 p 0) = ((mx p : ℝ) : EReal)) (p : Fin 512) :
    multiReduction (F := Ideal) .add [1] S512
        (exp (subf x (broadcastTo S512x3200 m broadcasts_S512x1_S512x3200)))
        0x00000000#32 reduces_S512x3200_S512 (.inl rfl) rfl (ValueIdx.ix1 p)
      = ((∑ k : Fin 3200, Real.exp (X p k - mx p) : ℝ) : EReal) := by
  have h1 := Ideal.multiReduction_add_single (φ := .f32) (s := S512x3200) (t := S512) (a := 1)
    (exp (subf x (broadcastTo S512x3200 m broadcasts_S512x1_S512x3200)))
    0x00000000#32 reduces_S512x3200_S512 (.inl rfl) rfl (ValueIdx.ix1 p)
  refine Eq.trans h1 ?_
  have hterm : ∀ k : Fin 3200,
      exp (F := Ideal) (φ := .f32) (subf x (broadcastTo S512x3200 m broadcasts_S512x1_S512x3200)) (reduces_S512x3200_S512.lift (ValueIdx.ix1 p) k)
        = ((Real.exp (X p k - mx p) : ℝ) : EReal) := by
    intro k
    rw [lift_row p k, exp_apply, ValueIdx.subf_apply, broadcastTo_a1_ab_apply, hx p k, hm p, ← EReal.coe_sub, Ideal.exp_coe]
  rw [coe_sum]
  exact Finset.sum_congr rfl fun k _ => hterm k

end Rows

/-! ## The payloads at a row, over the extended reals, for a block of reals and columns of reals.
    `X p` is row `p` of the block (3200 reals), `M p` the running maximum and `L p` the running sum the point finds. -/

/-- the new running maximum: the larger of the old one and the tile's maximum -/
theorem pay3_row (x : Vec Ideal S512x3200 .f32) (X : Fin 512 → Fin 3200 → ℝ)
    (hx : ∀ p q, x (ValueIdx.ix2 p q) = ((X p q : ℝ) : EReal))
    (v6 : Vec Ideal S512x1 .f32) (M : Fin 512 → ℝ) (hM : ∀ p, v6 (ValueIdx.ix2 p 0) = ((M p : ℝ) : EReal)) (p : Fin 512) :
    k0_pay3 (F := Ideal) x v6 (ValueIdx.ix2 p 0) = ((max (M p) (tileMax (X p)) : ℝ) : EReal) := by
  have e0 := congrFun (k0_pay3_eq x v6) (ValueIdx.ix2 p 0)
  refine Eq.trans e0 ?_
  have h5 := colMax x X hx p
  have h6 := hM p
  rw [ValueIdx.maximumf_apply, h6, h5]
  exact (EReal.coe_strictMono.monotone.map_max).symm

/-- the stored running maximum is the same number -/
theorem pay5_row (x : Vec Ideal S512x3200 .f32) (X : Fin 512 → Fin 3200 → ℝ)
    (hx : ∀ p q, x (ValueIdx.ix2 p q) = ((X p q : ℝ) : EReal))
    (v6 : Vec Ideal S512x1 .f32) (M : Fin 512 → ℝ) (hM : ∀ p, v6 (ValueIdx.ix2 p 0) = ((M p : ℝ) : EReal)) (p : Fin 512) :
    k0_pay5 (F := Ideal) x v6 (ValueIdx.ix2 p 0) = ((max (M p) (tileMax (X p)) : ℝ) : EReal) := by
  have e0 := congrFun (k0_pay5_eq x v6) (ValueIdx.ix2 p 0)
  have e1 := congrFun (shapeCast_self (k0_pay3 (F := Ideal) x v6) shapeCasts_S512x1_S512x1) (ValueIdx.ix2 p 0)
  exact Eq.trans e0 (Eq.trans e1 (pay3_row x X hx v6 M hM p))

/-- the new running sum: the old one rescaled to the new maximum, plus the tile's exponentials against the new maximum -/
theorem pay4_row (x : Vec Ideal S512x3200 .f32) (X : Fin 512 → Fin 3200 → ℝ)
    (hx : ∀ p q, x (ValueIdx.ix2 p q) = ((X p q : ℝ) : EReal))
    (v6 : Vec Ideal S512x1 .f32) (M : Fin 512 → ℝ) (hM : ∀ p, v6 (ValueIdx.ix2 p 0) = ((M p : ℝ) : EReal))
    (v15 : Vec Ideal S512x1 .f32) (L : Fin 512 → ℝ) (hL : ∀ p, v15 (ValueIdx.ix2 p 0) = ((L p : ℝ) : EReal)) (p : Fin 512) :
    k0_pay4 (F := Ideal) x v6 v15 (ValueIdx.ix2 p 0)
    = ((Real.exp (M p - max (M p) (tileMax (X p))) * L p + ∑ k : Fin 3200, Real.exp (X p k - max (M p) (tileMax (X p))) : ℝ) : EReal) := by
  have hm := pay3_row x X hx v6 M hM
  have e0 := congrFun (k0_pay4_eq x v6 v15) (ValueIdx.ix2 p 0)
  refine Eq.trans e0 ?_
  have e1 := congrFun (shapeCast_self
    (addf (mulf (exp (subf v6 (k0_pay3 (F := Ideal) x v6))) v15)
      (shapeCast S512x1
        (multiReduction (F := Ideal) .add [1] S512
          (exp (subf x (broadcastTo S512x3200 (k0_pay3 (F := Ideal) x v6) broadcasts_S512x1_S512x3200)))
          0x00000000#32 reduces_S512x3200_S512 (.inl rfl) rfl)
        shapeCasts_S512_S512x1))
    shapeCasts_S512x1_S512x1) (ValueIdx.ix2 p 0)
  refine Eq.trans e1 ?_
  have hs := rowSum x X hx (k0_pay3 (F := Ideal) x v6) (fun p => max (M p) (tileMax (X p))) hm p
  have hc := shapeCast_a_a1_apply (α := EReal) (a := 512)
    (multiReduction (F := Ideal) .add [1] S512
      (exp (subf x (broadcastTo S512x3200 (k0_pay3 (F := Ideal) x v6) broadcasts_S512x1_S512x3200)))
      0x00000000#32 reduces_S512x3200_S512 (.inl rfl) rfl)
    shapeCasts_S512_S512x1 p 0
  have h6 := hM p
  have h7 := hL p
  have h8 := hm p
  rw [ValueIdx.addf_apply, ValueIdx.mulf_apply, exp_apply, ValueIdx.subf_apply, hc, hs, h6, h7, h8,
    ← EReal.coe_sub, Ideal.exp_coe, ← EReal.coe_mul, ← EReal.coe_add]

/-- the output: the maximum plus the logarithm of a positive sum -/
theorem pay6_row (v27 v28 : Vec Ideal S512x1 .f32) (A B : Fin 512 → ℝ) (hA : ∀ p, v27 (ValueIdx.ix2 p 0) = ((A p : ℝ) : EReal))
    (hB : ∀ p, v28 (ValueIdx.ix2 p 0) = ((B p : ℝ) : EReal)) (hpos : ∀ p, 0 < B p) (p : Fin 512) :
    k0_pay6 (F := Ideal) v27 v28 (ValueIdx.ix2 p 0) = ((A p + Real.log (B p) : ℝ) : EReal) := by
  have e0 := congrFun (k0_pay6_eq v27 v28) (ValueIdx.ix2 p 0)
  refine Eq.trans e0 ?_
  rw [ValueIdx.addf_apply, log_apply, hA p, hB p, ideal_log_coe_pos (hpos p), ← EReal.coe_add]

/-- The word the running maximum is reset to is a finite real. -/
theorem reset_word_real : ∃ m₀ : ℝ, Ideal.ofBits .f32 0xFF333332#32 = ((m₀ : ℝ) : EReal) := by
  have h1 : ¬ (BitVec.extractLsb' 23 8 (0xFF333332#32 : BitVec 32)).toNat = 2 ^ 8 - 1 := by decide
  have h2 : ¬ (BitVec.extractLsb' 23 8 (0xFF333332#32 : BitVec 32)).toNat = 0 := by decide
  simp only [Ideal.ofBits, Ideal.ieee]
  rw [if_neg h1, if_neg h2]
  exact ⟨_, rfl⟩

/-- the reset values: a finite real for the maximum, zero for the sum -/
theorem pay1_row : ∃ m₀ : ℝ, ∀ p : Fin 512, k0_pay1 (F := Ideal) (ValueIdx.ix2 p 0) = ((m₀ : ℝ) : EReal) := by
  obtain ⟨m₀, h⟩ := reset_word_real
  refine ⟨m₀, fun p => ?_⟩
  have e0 := congrFun k0_pay1_eq (ValueIdx.ix2 p 0)
  have e1 := congrFun (shapeCast_self (broadcast S512x1 (Scalar.ofBits (F := Ideal) .f32 0xFF333332#32))
    shapeCasts_S512x1_S512x1) (ValueIdx.ix2 p 0)
  exact Eq.trans e0 (Eq.trans e1 h)

theorem pay2_row (p : Fin 512) : k0_pay2 (F := Ideal) (ValueIdx.ix2 p 0) = ((0 : ℝ) : EReal) := by
  have e0 := congrFun k0_pay2_eq (ValueIdx.ix2 p 0)
  have e1 := congrFun (shapeCast_self (broadcast S512x1 (Scalar.ofBits (F := Ideal) .f32 0x00000000#32))
    shapeCasts_S512x1_S512x1) (ValueIdx.ix2 p 0)
  exact Eq.trans e0 (Eq.trans e1 (Ideal.ofBits_zero_f32.trans EReal.coe_zero.symm))

end Cert.KernelIdeal.PayRows
end
-- ==== Proof.KernelBlocks.lean ====
/-
  The logits tile a grid point reads. The grid has 16 row blocks of 512 rows and, within each, 10 tiles of 3200 classes;
  point `t` is tile `t % 10` of row block `t / 10`. Entry (p, q) of the tile at point `t` is the logits table at row
  `512 * (t / 10) + p` and class `3200 * (t % 10) + q`: a block's coordinate is the block's index times the block's size
  plus the coordinate inside the block.
-/
import proofs.«400259_j7292854469120_3_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The table row that row `p` of the tile at point `t` is. -/
def rowOf (t : Fin cfg0.N) (p : Fin 512) : Fin 8192 :=
  ⟨512 * (t.val / 10) + p.val, by have := t.isLt; have hN : cfg0.N = 160 := N_0; have := p.isLt; omega⟩

/-- The class that column `q` of the tile at point `t` is. -/
def colOf (t : Fin cfg0.N) (q : Fin 3200) : Fin 32000 :=
  ⟨3200 * (t.val % 10) + q.val, by have := q.isLt; omega⟩

/-- The input window's block index at point `t`: (row block, tile). -/
theorem index_in : ∀ t : Fin cfg0.N, win0_0.index t (0 : Fin 2) = t.val / 10 ∧ win0_0.index t (1 : Fin 2) = t.val % 10 :=
  (by decide +kernel : ∀ t : Fin grid0.N, _)

/-- The tile at point `t`, at its literal type. -/
abbrev tileAt (c : Dev nD) (t : Fin cfg0.N) : Vec F S512x3200 .f32 := iblk m c 0 t

/-- ENTRY (p, q) OF THE TILE AT POINT `t` is the table's entry at (rowOf t p, colOf t q). -/
theorem tileAt_apply (c : Dev nD) (t : Fin cfg0.N) (p : Fin 512) (q : Fin 3200) :
    tileAt m c t (ix2 p q) = m ((c : Thread nD τ).loc main_arg0) (ix2 (rowOf t p) (colOf t q)) := by
  have hi := index_in t
  unfold tileAt iblk
  rw [View.read_apply]
  show V m c main_arg0 _ = m ((c : Thread nD τ).loc main_arg0) _
  rw [V_main_arg0]
  congr 1
  funext a
  apply Fin.ext
  match a with
  | ⟨0, _⟩ => show win0_0.index t 0 * 512 + 1 * p.val = 512 * (t.val / 10) + p.val; rw [hi.1]; omega
  | ⟨1, _⟩ => show win0_0.index t 1 * 3200 + 1 * q.val = 3200 * (t.val % 10) + q.val; rw [hi.2]; omega

end Cert.KernelIdeal.Blocks

end
-- ==== Proof.KernelRows.lean ====
/-
  The kernel region's output array is the column of the table rows' log-sum-exps.

  The region walks a grid of 160 points: 16 row blocks of 512 rows, 10 tiles of 3200 classes within each. It carries two
  columns of 512 numbers between points: a running maximum, reset to a finite number at the first tile of a row block,
  and a running sum, reset to zero there. At each tile the maximum becomes the larger of itself and the tile's row
  maxima, the sum is rescaled by the exponential of the old maximum minus the new and gains the exponentials of the tile's
  entries against the new maximum. By induction on the point, after tile `j` of a row block the two columns hold, row by
  row, the running maximum and the running sum of the first `j + 1` tiles of the table row. After the tenth tile the
  region writes maximum plus logarithm of the sum, which is the row's log-sum-exp whatever the maximum started from;
  the sixteen blocks so written cover the 8192 rows of the output array.
-/
import proofs.«400259_j7292854469120_3_alg».proof.Proof.KernelPieces
import proofs.«400259_j7292854469120_3_alg».proof.Proof.KernelPayRows
import proofs.«400259_j7292854469120_3_alg».proof.Proof.KernelBlocks
import proofs.«400259_j7292854469120_3_alg».proof.Proof.LossSpec
import Idealize.ShloMosaic.PureOps.Ideal
import Idealize.ShloMosaic.PureOps.Ideal.Laws
import Idealize.ShloMosaic.Lib.ValueIdx

set_option maxRecDepth 16384
noncomputable section

namespace Cert.KernelIdeal.Rows
open Cert.KernelIdeal Cert.KernelIdeal.Gen Idealize.ShloMosaic Idealize.ShloMosaic.TcCoe Idealize.ShloMosaic.ValueIdx Idealize.SL.Sem
open Cert.KernelIdeal.Pieces Cert.KernelIdeal.Blocks Cert.KernelIdeal.PayRows Cert.LibOnline Cert.LossSpec
open scoped BigOperators

variable (m : (ℓ : Loc nD τ sig) → Buf (Elt Ideal) ℓ) (X : Fin 8192 → Fin 32000 → ℝ)
  (hX : ∀ (c : Dev nD) (b : Fin 8192) (v : Fin 32000), m ((c : Thread nD τ).loc main_arg0) (ix2 b v) = ((X b v : ℝ) : EReal))

/-- The reals the tile at point `t` holds: row `p` is tile `t % 10` of the table row it belongs to. -/
def tileReal (t : Fin cfg0.N) (p : Fin 512) : Fin 3200 → ℝ := tile (X (rowOf t p)) (t.val % 10)

include hX in
theorem tileAt_real (c : Dev nD) (t : Fin cfg0.N) (p : Fin 512) (q : Fin 3200) :
    tileAt m c t (ix2 p q) = ((tileReal X t p q : ℝ) : EReal) := by
  rw [tileAt_apply, hX]
  have hlt : 3200 * (t.val % 10) + q.val < 32000 := by have := q.isLt; omega
  simp only [tileReal, tile, hlt, dif_pos]
  rfl

include hX in
/-- ONE UPDATE: from columns holding the reals `M` and `L`, the new running maximum and the new running sum at row `p`. -/
theorem step_cols (c : Dev nD) (t : Fin cfg0.N) (xs0 xs1 : Vec Ideal S512x1 .f32) (M L : Fin 512 → ℝ)
    (hM : ∀ p, xs0 (ix2 p 0) = ((M p : ℝ) : EReal)) (hL : ∀ p, xs1 (ix2 p 0) = ((L p : ℝ) : EReal)) (p : Fin 512) :
    k0_pay5 (F := Ideal) (tileAt m c t) xs0 (ix2 p 0) = ((max (M p) (tileMax (tileReal X t p)) : ℝ) : EReal)
    ∧ k0_pay4 (F := Ideal) (tileAt m c t) xs0 xs1 (ix2 p 0)
        = ((Real.exp (M p - max (M p) (tileMax (tileReal X t p))) * L p
            + ∑ k : Fin 3200, Real.exp (tileReal X t p k - max (M p) (tileMax (tileReal X t p))) : ℝ) : EReal) :=
  ⟨pay5_row (tileAt m c t) (tileReal X t) (tileAt_real m X hX c t) xs0 M hM p,
   pay4_row (tileAt m c t) (tileReal X t) (tileAt_real m X hX c t) xs0 M hM xs1 L hL p⟩

/-- The columns after a point that does not start a row block are the update of the columns the point before left. -/
theorem cols_step (c : Dev nD) (n : ℕ) (h : n + 1 < cfg0.N) (h0 : ¬(n + 1) % 10 = 0) :
    (outsAt0 m c (n + 1) h).2.1 = k0_pay5 (F := Ideal) (tileAt m c ⟨n + 1, h⟩) (outsAt0 m c n (Nat.lt_of_succ_lt h)).2.1
    ∧ (outsAt0 m c (n + 1) h).2.2 = k0_pay4 (F := Ideal) (tileAt m c ⟨n + 1, h⟩) (outsAt0 m c n (Nat.lt_of_succ_lt h)).2.1
        (outsAt0 m c n (Nat.lt_of_succ_lt h)).2.2 := by
  by_cases h1 : (n + 1) % 10 = 9
  · have e := outsAt0_C m c ⟨n + 1, h⟩ h0 h1
    rw [e]; dsimp only
    exact ⟨sout_C_0 .., sout_C_1 ..⟩
  · have e := outsAt0_B m c ⟨n + 1, h⟩ h0 h1
    rw [e]; dsimp only
    exact ⟨sout_B_0 .., sout_B_1 ..⟩

/-- The output block after a point that ends a row block: the maximum column plus the logarithm of the sum column, both as
    the point has just updated them. -/
theorem out_step (c : Dev nD) (n : ℕ) (h : n + 1 < cfg0.N) (h9 : (n + 1) % 10 = 9) :
    (outsAt0 m c (n + 1) h).1 = k0_pay6 (F := Ideal) (outsAt0 m c (n + 1) h).2.1 (outsAt0 m c (n + 1) h).2.2 := by
  have h0 : ¬(n + 1) % 10 = 0 := by omega
  rw [(cols_step m c n h h0).1, (cols_step m c n h h0).2]
  have e := outsAt0_C m c ⟨n + 1, h⟩ h0 h9
  rw [e]; dsimp only
  exact out_C_1 ..

include hX in
/-- THE TWO CARRIED COLUMNS AFTER POINT `n`, at row `p`: the running maximum and the running sum of the first
    `n % 10 + 1` tiles of the table row, started from `m₀` and `0`. By induction on the point: a point that starts a
    row block updates the reset values; any other point updates what the point before left, which belongs to the same
    table rows one tile earlier. -/
theorem cols_at (c : Dev nD) (m₀ : ℝ) (hm₀ : ∀ p : Fin 512, k0_pay1 (F := Ideal) (ix2 p 0) = ((m₀ : ℝ) : EReal)) :
    ∀ (n : ℕ) (h : n < cfg0.N) (p : Fin 512),
      (outsAt0 m c n h).2.1 (ix2 p 0) = ((onlineM (tile (X (rowOf ⟨n, h⟩ p))) m₀ (n % 10 + 1) : ℝ) : EReal)
      ∧ (outsAt0 m c n h).2.2 (ix2 p 0) = ((onlineS (tile (X (rowOf ⟨n, h⟩ p))) m₀ (n % 10 + 1) : ℝ) : EReal) := by
  intro n
  induction n with
  | zero =>
    intro h p
    have e := outsAt0_A m c ⟨0, h⟩ rfl (by dsimp only; omega)
    have hs := step_cols m X hX c ⟨0, h⟩ (k0_pay1 (F := Ideal)) (k0_pay2 (F := Ideal)) (fun _ => m₀) (fun _ => 0) hm₀ (fun p => pay2_row p) p
    rw [e]; dsimp only
    rw [sout_A_0, sout_A_1]
    refine ⟨hs.1.trans ?_, hs.2.trans ?_⟩
    · simp only [tileReal, Fin.val_mk, Nat.zero_mod, zero_add, onlineM]
    · simp only [tileReal, Fin.val_mk, Nat.zero_mod, zero_add, onlineS, onlineM, mul_zero, zero_mul]
  | succ n ih =>
    intro h p
    have hN : cfg0.N = 160 := N_0
    by_cases h0 : (n + 1) % 10 = 0
    · have h1 : ¬(n + 1) % 10 = 9 := by omega
      have e := outsAt0_A m c ⟨n + 1, h⟩ h0 h1
      have hs := step_cols m X hX c ⟨n + 1, h⟩ (k0_pay1 (F := Ideal)) (k0_pay2 (F := Ideal)) (fun _ => m₀) (fun _ => 0) hm₀ (fun p => pay2_row p) p
      rw [e]; dsimp only
      rw [sout_A_0, sout_A_1]
      refine ⟨hs.1.trans ?_, hs.2.trans ?_⟩
      · simp only [tileReal, Fin.val_mk, h0, zero_add, onlineM]
      · simp only [tileReal, Fin.val_mk, h0, zero_add, onlineS, onlineM, mul_zero, zero_mul]
    · have hn : n < cfg0.N := Nat.lt_of_succ_lt h
      have hrow : rowOf ⟨n + 1, h⟩ p = rowOf ⟨n, hn⟩ p := Fin.ext (by simp only [rowOf]; omega)
      have hmod : (n + 1) % 10 = n % 10 + 1 := by omega
      have hs := step_cols m X hX c ⟨n + 1, h⟩ (outsAt0 m c n hn).2.1 (outsAt0 m c n hn).2.2
        (fun p => onlineM (tile (X (rowOf ⟨n, hn⟩ p))) m₀ (n % 10 + 1)) (fun p => onlineS (tile (X (rowOf ⟨n, hn⟩ p))) m₀ (n % 10 + 1))
        (fun p => (ih hn p).1) (fun p => (ih hn p).2) p
      have hcols := cols_step m c n h h0
      rw [hcols.1, hcols.2]
      refine ⟨hs.1.trans ?_, hs.2.trans ?_⟩
      · simp only [tileReal, Fin.val_mk, hrow, hmod, onlineM]
      · simp only [tileReal, Fin.val_mk, hrow, hmod, onlineS, onlineM]
        congr 1
        ring

include hX in
/-- THE OUTPUT BLOCK AFTER THE LAST TILE OF A ROW BLOCK, at row `p`: the table row's log-sum-exp. -/
theorem out_at (c : Dev nD) (m₀ : ℝ) (hm₀ : ∀ p : Fin 512, k0_pay1 (F := Ideal) (ix2 p 0) = ((m₀ : ℝ) : EReal))
    (n : ℕ) (h : n < cfg0.N) (h9 : n % 10 = 9) (p : Fin 512) :
    (outsAt0 m c n h).1 (ix2 p 0) = ((rowLse (X (rowOf ⟨n, h⟩ p)) : ℝ) : EReal) := by
  obtain ⟨k, rfl⟩ : ∃ k, n = k + 1 := ⟨n - 1, by omega⟩
  rw [out_step m c k h h9]
  have hc := cols_at m X hX c m₀ hm₀ (k + 1) h
  have hpos : ∀ q : Fin 512, 0 < onlineS (tile (X (rowOf ⟨k + 1, h⟩ q))) m₀ ((k + 1) % 10 + 1) :=
    fun q => onlineS_pos _ m₀ (Nat.succ_pos _)
  rw [pay6_row _ _ _ _ (fun q => (hc q).1) (fun q => (hc q).2) hpos p, h9]
  exact congrArg _ (online_rowLse (X (rowOf ⟨k + 1, h⟩ p)) m₀)

/-! ## The output array -/

include hX in
/-- The output block after the last tile of a row block, at any index of the block. -/
theorem out_at_idx (c : Dev nD) (m₀ : ℝ) (hm₀ : ∀ p : Fin 512, k0_pay1 (F := Ideal) (ix2 p 0) = ((m₀ : ℝ) : EReal))
    (t : Fin cfg0.N) (h9 : t.val % 10 = 9) (y : S512x1.Idx) :
    (outsAt0 m c t.val t.isLt).1 y = ((rowLse (X (rowOf t (y 0))) : ℝ) : EReal) := by
  have hy : y = ix2 (y 0) 0 := by
    funext a
    match a with
    | ⟨0, _⟩ => rfl
    | ⟨1, _⟩ => exact Fin.ext (by have h1 : (y 1).val < 1 := (y 1).isLt; show (y 1).val = 0; omega)
  exact (congrArg (outsAt0 m c t.val t.isLt).1 hy).trans (out_at m X hX c m₀ hm₀ t.val t.isLt h9 (y 0))

/-- The output window's block index at point `t`: (row block, 0). -/
theorem index_out : ∀ t : Fin cfg0.N, win0_1.index t (0 : Fin 2) = t.val / 10 ∧ win0_1.index t (1 : Fin 2) = 0 :=
  (by decide +kernel : ∀ t : Fin grid0.N, _)

/-- The column of the table rows' log-sum-exps. -/
def lseCol : S8192x1.Idx → EReal := fun i => ((rowLse (X (⟨(i 0).val, (i 0).isLt⟩ : Fin 8192)) : ℝ) : EReal)

include hX in
/-- WHAT A POINT THAT ENDS A ROW BLOCK WRITES BACK is its block of the column of log-sum-exps. -/
theorem flushed_eq (c : Dev nD) (m₀ : ℝ) (hm₀ : ∀ p : Fin 512, k0_pay1 (F := Ideal) (ix2 p 0) = ((m₀ : ℝ) : EReal))
    (t : Fin cfg0.N) (hf : (cfg0.win 1).flush t = true) :
    (dats m 0 c).flushed 1 t = ((cfg0.win 1).blk t).view.read (Elt Ideal) (lseCol X) := by
  have h9 : t.val % 10 = 9 := (flush0_1 t).mp hf
  have hi := index_out t
  show (cfg0.win 1).cut (grid0.coords t) ((dats m 0 c).after 1 t) = _
  rw [after0_1]
  funext j
  show (outsAt0 m c t.val t.isLt).1 j = lseCol X (((cfg0.win 1).blk t).view.emb j)
  rw [out_at_idx m X hX c m₀ hm₀ t h9 j]
  unfold lseCol
  congr 3
  apply Fin.ext
  show 512 * (t.val / 10) + (j 0).val = win0_1.index t (0 : Fin 2) * 512 + 1 * (j 0).val
  rw [hi.1]; omega

/-- An index of the array is in point `t`'s block iff each coordinate is in the block's range on its axis. -/
theorem mem_blk (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0).slice (win0_1.rect t)).set ↔ _
  rw [View.set_slice_whole, Rect.mem_set_unit]
  exact Iff.rfl

/-- Every row of the array is in the block of the point that ends its row block. -/
theorem covered (i : S8192x1.Idx) : ∃ t : Fin cfg0.N, (cfg0.win 1).flush t = true ∧ i ∈ ((cfg0.win 1).blk t).view.set := by
  have hN : cfg0.N = 160 := N_0
  have hi0 : (i 0).val < 8192 := (i 0).isLt
  have hi1 : (i 1).val < 1 := (i 1).isLt
  refine ⟨⟨10 * ((i 0).val / 512) + 9, by omega⟩, (flush0_1 _).mpr (by dsimp only; omega), ?_⟩
  rw [mem_blk]
  intro a
  have hx := index_out ⟨10 * ((i 0).val / 512) + 9, by omega⟩
  match a with
  | ⟨0, _⟩ => show win0_1.index _ (0 : Fin 2) * 512 ≤ (i 0).val ∧ (i 0).val < win0_1.index _ (0 : Fin 2) * 512 + 512; rw [hx.1]; dsimp only; omega
  | ⟨1, _⟩ => show win0_1.index _ (1 : Fin 2) * 1 ≤ (i 1).val ∧ (i 1).val < win0_1.index _ (1 : Fin 2) * 1 + 1; rw [hx.2]; omega

include hX in
/-- THE OUTPUT ARRAY after the run is the column of the table rows' log-sum-exps. -/
theorem final_lse (c : Dev nD) : (dats m 0 c).arrAt 1 cfg0.N = lseCol X := by
  obtain ⟨m₀, hm₀⟩ := pay1_row
  exact (dats m 0 c).arrAt_eq_of_cover 1 (lseCol X) (fun t hf => flushed_eq m X hX c m₀ hm₀ t hf) covered

end Cert.KernelIdeal.Rows
end
-- ==== Proof.KernelTailOps.lean ====
/-
  The 38 host operations that follow the kernel region, in program order (5 stretches: the two clip bounds, the clip of the
  labels, the labels as a column, the gather along the class axis with its guard, and the mean of the differences), each over the
  literal buffers it reads and the one it writes, with the plain builder of its arity.
-/
import proofs.«400259_j7292854469120_3_alg».proof.Proof.Gen.KernelIdeal.Launch
import Idealize.ShloMosaic.Lib.StableHlo.Run

noncomputable section

namespace Cert.KernelIdeal.TailOps

open Cert.KernelIdeal Cert.KernelIdeal.Gen Idealize.ShloMosaic Idealize.ShloMosaic.TcCoe Idealize.SL.Sem Idealize.ShloMosaic.StableHlo

variable {F : FTy → Type} [FloatOps F]

/-- The operations after the region, in order. -/
abbrev tailOps : List (HloOp τ sig (Elt F)) :=
  [ nullary main_c (constantI S_ 32 0#32),
    nullary main_c_0 (constantI S_ 32 31999#32),
    unary main_c main_call0_v0 (id : (⟨S_, .i32⟩ : BufTy).Contents (Elt F) → (⟨S_, .i32⟩ : BufTy).Contents (Elt F)),
    unary main_call0_v0 main_call0_v1 ((broadcastInDim S8192 ![] bcast_S_S8192) : (⟨S_, .i32⟩ : BufTy).Contents (Elt F) → (⟨S8192, .i32⟩ : BufTy).Contents (Elt F)),
    binary main_call0_v1 main_arg1 main_call0_v2 (maxsi : (⟨S8192, .i32⟩ : BufTy).Contents (Elt F) → (⟨S8192, .i32⟩ : BufTy).Contents (Elt F) → (⟨S8192, .i32⟩ : BufTy).Contents (Elt F)),
    unary main_c_0 main_call0_v3 (id : (⟨S_, .i32⟩ : BufTy).Contents (Elt F) → (⟨S_, .i32⟩ : BufTy).Contents (Elt F)),
    unary main_call0_v3 main_call0_v4 ((broadcastInDim S8192 ![] bcast_S_S8192) : (⟨S_, .i32⟩ : BufTy).Contents (Elt F) → (⟨S8192, .i32⟩ : BufTy).Contents (Elt F)),
    binary main_call0_v4 main_call0_v2 main_v1 (minsi : (⟨S8192, .i32⟩ : BufTy).Contents (Elt F) → (⟨S8192, .i32⟩ : BufTy).Contents (Elt F) → (⟨S8192, .i32⟩ : BufTy).Contents (Elt F)),
    unary main_v1 main_v2 (broadcastInDim S8192x1 ![0] bcast_S8192_S8192x1_0 : (⟨S8192, .i32⟩ : BufTy).Contents (Elt F) → (⟨S8192x1, .i32⟩ : BufTy).Contents (Elt F)),
    nullary main_call1_c ((constantI S_ 32 0#32) : (⟨S_, .i32⟩ : BufTy).Contents (Elt F)),
    unary main_call1_c main_call1_v0 ((broadcastInDim S8192x1 ![] bcast_S_S8192x1) : (⟨S_, .i32⟩ : BufTy).Contents (Elt F) → (⟨S8192x1, .i32⟩ : BufTy).Contents (Elt F)),
    binary main_v2 main_call1_v0 main_call1_v1 ((cmpi .slt) : (⟨S8192x1, .i32⟩ : BufTy).Contents (Elt F) → (⟨S8192x1, .i32⟩ : BufTy).Contents (Elt F) → (⟨S8192x1, .i1⟩ : BufTy).Contents (Elt F)),
    nullary main_call1_c_0 ((constantI S_ 32 32000#32) : (⟨S_, .i32⟩ : BufTy).Contents (Elt F)),
    unary main_call1_c_0 main_call1_v2 ((broadcastInDim S8192x1 ![] bcast_S_S8192x1) : (⟨S_, .i32⟩ : BufTy).Contents (Elt F) → (⟨S8192x1, .i32⟩ : BufTy).Contents (Elt F)),
    binary main_v2 main_call1_v2 main_call1_v3 (addi : (⟨S8192x1, .i32⟩ : BufTy).Contents (Elt F) → (⟨S8192x1, .i32⟩ : BufTy).Contents (Elt F) → (⟨S8192x1, .i32⟩ : BufTy).Contents (Elt F)),
    ternary main_call1_v1 main_call1_v3 main_v2 main_call1_v4 (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)),
    reshape main_call1_v4 main_call1_v5 rfl shapeCasts_S8192x1_S8192x1x1,
    nullary main_call1_c_1 ((constantI S1 32 31999#32) : (⟨S1, .i32⟩ : BufTy).Contents (Elt F)),
    nullary main_call1_c_2 ((constantI S_ 32 0#32) : (⟨S_, .i32⟩ : BufTy).Contents (Elt F)),
    unary main_call1_c_2 main_call1_v6 ((broadcastInDim S8192x1x1 ![] bcast_S_S8192x1x1) : (⟨S_, .i32⟩ : BufTy).Contents (Elt F) → (⟨S8192x1x1, .i32⟩ : BufTy).Contents (Elt F)),
    binary main_call1_v5 main_call1_v6 main_call1_v7 ((cmpi .sge) : (⟨S8192x1x1, .i32⟩ : BufTy).Contents (Elt F) → (⟨S8192x1x1, .i32⟩ : BufTy).Contents (Elt F) → (⟨S8192x1x1, .i1⟩ : BufTy).Contents (Elt F)),
    unary main_call1_c_1 main_call1_v8 ((broadcastInDim S1x1x1 ![2] bcast_S1_S1x1x1_2) : (⟨S1, .i32⟩ : BufTy).Contents (Elt F) → (⟨S1x1x1, .i32⟩ : BufTy).Contents (Elt F)),
    unary main_call1_v8 main_call1_v9 ((broadcastInDim S8192x1x1 ![0, 1, 2] bcast_S1x1x1_S8192x1x1_0_1_2) : (⟨S1x1x1, .i32⟩ : BufTy).Contents (Elt F) → (⟨S8192x1x1, .i32⟩ : BufTy).Contents (Elt F)),
    binary main_call1_v5 main_call1_v9 main_call1_v10 ((cmpi .sle) : (⟨S8192x1x1, .i32⟩ : BufTy).Contents (Elt F) → (⟨S8192x1x1, .i32⟩ : BufTy).Contents (Elt F) → (⟨S8192x1x1, .i1⟩ : BufTy).Contents (Elt F)),
    binary main_call1_v7 main_call1_v10 main_call1_v11 (andi : (⟨S8192x1x1, .i1⟩ : BufTy).Contents (Elt F) → (⟨S8192x1x1, .i1⟩ : BufTy).Contents (Elt F) → (⟨S8192x1x1, .i1⟩ : BufTy).Contents (Elt F)),
    nullary main_call1_c_3 ((constantI S_ 1 1#1) : (⟨S_, .i1⟩ : BufTy).Contents (Elt F)),
    binary main_call1_v11 main_call1_c_3 main_call1_v12 ((fun x v => Host.reduce IntOp.andi x v reducesTo_S8192x1x1_S8192x1_d2 h_S_) : (⟨S8192x1x1, .i1⟩ : BufTy).Contents (Elt F) → (⟨S_, .i1⟩ : BufTy).Contents (Elt F) → (⟨S8192x1, .i1⟩ : BufTy).Contents (Elt F)),
    binary main_arg0 main_call1_v5 main_call1_v13 ((fun x i => Host.gather gather_S8192x32000_S8192x1x1_S8192x1_n_1_0_0_1_2_11 x i) : (⟨S8192x32000, .f32⟩ : BufTy).Contents (Elt F) → (⟨S8192x1x1, .i32⟩ : BufTy).Contents (Elt F) → (⟨S8192x1, .f32⟩ : BufTy).Contents (Elt F)),
    nullary main_call1_cst ((constant S_ .f32 0x7FC00000#32) : (⟨S_, .f32⟩ : BufTy).Contents (Elt F)),
    unary main_call1_cst main_call1_v14 ((broadcastInDim S8192x1 ![] bcast_S_S8192x1) : (⟨S_, .f32⟩ : BufTy).Contents (Elt F) → (⟨S8192x1, .f32⟩ : BufTy).Contents (Elt F)),
    ternary main_call1_v12 main_call1_v13 main_call1_v14 main_v3 (select : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)),
    reshape main_v3 main_v4 rfl shapeCasts_S8192x1_S8192,
    reshape main_v0 main_v5 rfl shapeCasts_S8192x1_S8192,
    binary main_v5 main_v4 main_v6 (subf : (⟨S8192, .f32⟩ : BufTy).Contents (Elt F) → (⟨S8192, .f32⟩ : BufTy).Contents (Elt F) → (⟨S8192, .f32⟩ : BufTy).Contents (Elt F)),
    nullary main_cst (constant S_ .f32 0x00000000#32),
    binary main_v6 main_cst main_v7 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_1 (constant S_ .f32 0x46000000#32),
    binary main_v7 main_cst_1 main_v8 (Host.divf : (⟨S_, .f32⟩ : BufTy).Contents (Elt F) → (⟨S_, .f32⟩ : BufTy).Contents (Elt F) → (⟨S_, .f32⟩ : BufTy).Contents (Elt F)) ]

end Cert.KernelIdeal.TailOps

end
-- ==== Proof.KernelTail.lean ====
/-
  The operations after the kernel region, as one function of three arrays: the logits, the labels and the column the
  region leaves (one number per row). The labels are clipped into [0, 31999] and laid as a column; a negative entry is
  wrapped by the row length; the column is reshaped into the start indices of a gather that takes one logit of each row,
  guarded row by row by the bit "0 ≤ index ≤ 31999" (the fill value where the bit is 0); the result is the mean over
  the rows of the region's column minus the taken logit.

  That the program's five stretches of operations are this one list is a comparison one operation at a time (the clip
  and the gather are spelled over typed references in the program; their transports are identities), and the buffer the
  program returns then holds this function of whatever the three buffers held when the region ended.
-/
import proofs.«400259_j7292854469120_3_alg».proof.Proof.KernelTailOps

noncomputable section

namespace Cert.KernelIdeal.Tail

open Cert.KernelIdeal Cert.KernelIdeal.Gen Cert.KernelIdeal.TailOps Idealize.ShloMosaic Idealize.ShloMosaic.TcCoe Idealize.SL.Sem Idealize.ShloMosaic.StableHlo

variable {F : FTy → Type} [FloatOps F]

/-- The labels clipped into [0, 31999]. -/
def clipped (t : IVec S8192 32) : IVec S8192 32 :=
  minsi (broadcastInDim S8192 ![] bcast_S_S8192 (id (constantI S_ 32 31999#32)))
    (maxsi (broadcastInDim S8192 ![] bcast_S_S8192 (id (constantI S_ 32 0#32))) t)

/-- The clipped labels as a column. -/
def labelCol (t : IVec S8192 32) : IVec S8192x1 32 := broadcastInDim S8192x1 ![0] bcast_S8192_S8192x1_0 (clipped t)

/-- The column with a negative entry wrapped by the row length. -/
def wrapped (t : IVec S8192 32) : IVec S8192x1 32 :=
  select (cmpi .slt (labelCol t) (broadcastInDim S8192x1 ![] bcast_S_S8192x1 (constantI S_ 32 0#32)))
    (addi (labelCol t) (broadcastInDim S8192x1 ![] bcast_S_S8192x1 (constantI S_ 32 32000#32))) (labelCol t)

/-- The start indices of the gather. -/
def startIdx (t : IVec S8192 32) : IVec S8192x1x1 32 := shapeCast S8192x1x1 (wrapped t) shapeCasts_S8192x1_S8192x1x1

/-- The guard: row by row, whether the start index lies in [0, 31999]. -/
def guard (t : IVec S8192 32) : IVec S8192x1 1 :=
  Host.reduce IntOp.andi
    (andi (cmpi .sge (startIdx t) (broadcastInDim S8192x1x1 ![] bcast_S_S8192x1x1 (constantI S_ 32 0#32)))
      (cmpi .sle (startIdx t) (broadcastInDim S8192x1x1 ![0, 1, 2] bcast_S1x1x1_S8192x1x1_0_1_2
        (broadcastInDim S1x1x1 ![2] bcast_S1_S1x1x1_2 (constantI S1 32 31999#32)))))
    (constantI S_ 1 1#1) reducesTo_S8192x1x1_S8192x1_d2 h_S_

/-- The logit taken from each row, the fill value where the guard is 0. -/
def taken (x : FVec F S8192x32000 .f32) (t : IVec S8192 32) : FVec F S8192x1 .f32 :=
  select (guard t) (Host.gather gather_S8192x32000_S8192x1x1_S8192x1_n_1_0_0_1_2_11 x (startIdx t))
    (broadcastInDim S8192x1 ![] bcast_S_S8192x1 (constant S_ .f32 0x7FC00000#32))

/-- THE TAIL: the mean over the rows of the region's column minus the taken logit. -/
def tailFn (x : FVec F S8192x32000 .f32) (t : IVec S8192 32) (z : FVec F S8192x1 .f32) : FVec F S_ .f32 :=
  Host.divf
    (Host.reduceAdd (subf (shapeCast S8192 z shapeCasts_S8192x1_S8192) (shapeCast S8192 (taken x t) shapeCasts_S8192x1_S8192))
      (constant S_ .f32 0x00000000#32) reducesTo_S8192_S_d0 h_S_)
    (constant S_ .f32 0x46000000#32)

attribute [local irreducible] Host.reduce Host.reduceAdd Host.gather Host.divf select andi addi cmpi subf maxsi minsi broadcastInDim shapeCast constant constantI in
set_option maxRecDepth 8192 in
/-- The program's five stretches of operations after the region are the one list. -/
theorem tail_eq : (List.flatten [hostOps1, hostOps1_1, hostOps1_2, hostOps1_3, hostOps1_4] : List (HloOp τ sig (Elt F))) = tailOps := rfl

set_option maxRecDepth 8192 in
/-- After the operations, the returned buffer holds the tail of what the logits', the labels' and the region's
    buffers held before them. -/
theorem tail_val (W : Valuation τ sig (Elt F)) :
    after (tailOps (F := F)) W (Proc.devRef .tc main_v8)
      = tailFn (W (Proc.devRef .tc main_arg0)) (W (Proc.devRef .tc main_arg1)) (W (Proc.devRef .tc main_v0)) := by
  after_results_simp <;> rfl

end Cert.KernelIdeal.Tail

end
-- ==== Proof.KernelRun.lean ====
/-
  What the kernel program returns, read off its run: the operations after the region, applied to the logits and the labels
  as the program was launched with them and to the region's output array, which is the column of the table rows'
  log-sum-exps.

  After the region the logits' array holds what it held at the launch (the region only reads it), the labels' array was
  never staged, and the output array holds what the region's write-backs left. The returned buffer is then the tail of
  those three.
-/
import proofs.«400259_j7292854469120_3_alg».proof.Proof.KernelRows
import proofs.«400259_j7292854469120_3_alg».proof.Proof.KernelTail
import Idealize.ShloMosaic.Lib.Pipeline.Value

set_option maxRecDepth 16384

noncomputable section

namespace Cert.KernelIdeal.Run

open Cert.KernelIdeal Cert.KernelIdeal.Gen Idealize.ShloMosaic Idealize.ShloMosaic.TcCoe Idealize.ShloMosaic.ValueIdx Idealize.SL.Sem
open Cert.KernelIdeal.Rows Cert.KernelIdeal.Tail Cert.KernelIdeal.TailOps Cert.LossSpec

variable (m : (ℓ : Loc nD τ sig) → Buf (Elt Ideal) ℓ) (X : Fin 8192 → Fin 32000 → ℝ)
  (hX : ∀ (c : Dev nD) (b : Fin 8192) (v : Fin 32000), m ((c : Thread nD τ).loc main_arg0) (ix2 b v) = ((X b v : ℝ) : EReal))

/-- The region's exit contents: the pipeline's two arrays at what the run left, every other buffer as launched. -/
abbrev exitVal (c : Dev nD) : Valuation τ sig (Elt Ideal) :=
  Pipeline.withArrays spec0 c (V0 m c) fun w => (dats m 0 c).arrAt w cfg0.N

/-- The logits' array after the region is the launch contents: an input array is only read. -/
theorem exit_logits (c : Dev nD) : exitVal m c (Proc.devRef .tc main_arg0) = m ((c : Thread nD τ).loc main_arg0) :=
  (Pipeline.withArrays_arr spec0 launch0.win.arr_inj c (V0 m c) _ 0).trans
    (((dats m 0 c).arrAt_in 0 rfl _).trans ((A_eq m c 0).trans (V_main_arg0 m c)))

/-- The labels' array is no array of the pipeline: it holds the launch contents. -/
theorem exit_labels (c : Dev nD) : exitVal m c (Proc.devRef .tc main_arg1) = m ((c : Thread nD τ).loc main_arg1) :=
  (Pipeline.withArrays_of_ne spec0 c (V0 m c) _ main_arg1 (by decide)).trans (V_main_arg1 m c)

include hX in
/-- The region's output array is the column of the table rows' log-sum-exps. -/
theorem exit_region (c : Dev nD) : exitVal m c (Proc.devRef .tc main_v0) = lseCol X :=
  (Pipeline.withArrays_arr spec0 launch0.win.arr_inj c (V0 m c) _ 1).trans (final_lse m X hX c)

include hX in
/-- THE RETURNED BUFFER after the operations that follow the region. -/
theorem returned (c : Dev nD) :
    Pipeline.afterTail₀ cfgs (dats m) 0 (V0 m) [hostOps1, hostOps1_1, hostOps1_2, hostOps1_3, hostOps1_4] c main_v8
      = tailFn (F := Ideal) (m ((c : Thread nD τ).loc main_arg0)) (m ((c : Thread nD τ).loc main_arg1)) (lseCol X) := by
  unfold Pipeline.afterTail₀
  show StableHlo.after (List.flatten [hostOps1, hostOps1_1, hostOps1_2, hostOps1_3, hostOps1_4]) (exitVal m c) (Proc.devRef .tc main_v8) = _
  rw [tail_eq, tail_val, exit_logits, exit_labels, exit_region m X hX c]

end Cert.KernelIdeal.Run

end
-- ==== Proof.LibIndexWords.lean ====
import Idealize.ShloMosaic.PureOps.Vector
import Idealize.ShloMosaic.Lib.StableHlo.Predicate

/-!
# Index words: 32-bit words whose signed value is a small natural number

An index into a table of `N` rows travels as a 32-bit two's-complement word `x`. When its signed value
`x.toInt` is already a row number `k < N`, the arithmetic a program wraps around it does nothing:

* clipping into a range that holds it, `minimum(hi, maximum(lo, x))`, gives `x` back (`clip_of_mem`);
* the wrap of a negative index, `select(x < 0, x + n, x)`, takes the second branch (`wrap_of_nonneg`);
* the clamp of a start index into the table, `min x.toInt.toNat (N - 1)`, is `k` (`clamp_of_eq`,
  `clamp_fin_of_eq`).

Each is stated at one element, for the operations on words (`IntOp.maxsi`, `IntOp.minsi`, `IntOp.cmpi`,
`IntOp.addi`, `Scalar.select`) that the elementwise operations on arrays apply at every index; the
array forms follow by function extensionality (`clip_vec_of_mem`, `wrap_vec_of_nonneg`). The last
section moves between a word and its value: the word of a small natural number has that value, and a
word is determined by its signed value.
-/

namespace Cert.LibIndexWords

open Idealize.ShloMosaic

/-! ## The signed order, read on the signed values -/

/-- `a` is not strictly below `b` in the signed order exactly when `b.toInt ≤ a.toInt`. -/
theorem slt_eq_false_of_le {a b : BitVec 32} (h : b.toInt ≤ a.toInt) : a.slt b = false := by
  simp only [BitVec.slt, decide_eq_false_iff_not, not_lt]
  exact h

/-! ## Clipping -/

/-- Clipping into a range leaves a word of that range alone. With `lo ≤ x ≤ hi` as signed values,
    `maximum(lo, x)` keeps `x` (it would take `lo` only if `x` were strictly below it) and then
    `minimum(hi, x)` keeps `x` (it would take `hi` only if `hi` were strictly below `x`). -/
theorem clip_of_mem (x lo hi : BitVec 32) (hlo : lo.toInt ≤ x.toInt) (hhi : x.toInt ≤ hi.toInt) :
    IntOp.minsi hi (IntOp.maxsi lo x) = x := by
  have hmax : IntOp.maxsi lo x = x := by
    unfold IntOp.maxsi
    rw [slt_eq_false_of_le hlo]
    rfl
  rw [hmax]
  unfold IntOp.minsi
  rw [slt_eq_false_of_le hhi]
  rfl

/-- The same with the range given by a row count: a word whose value is a row number `k < N` is left
    alone by the clip to `[0, N - 1]`, whatever word `hi` carries the value `N - 1`. -/
theorem clip_of_fin {N : Nat} (x hi : BitVec 32) (k : Fin N) (hx : x.toInt = (k.val : ℤ))
    (hhi : hi.toInt = ((N - 1 : ℕ) : ℤ)) : IntOp.minsi hi (IntOp.maxsi 0#32 x) = x := by
  have h0 : (0#32 : BitVec 32).toInt = 0 := by decide
  have hk := k.isLt
  exact clip_of_mem x 0#32 hi (by rw [h0, hx]; omega) (by rw [hx, hhi]; omega)

/-- Clipping a whole array of words, each within the bounds at its own position, gives the array back. -/
theorem clip_vec_of_mem {s : Shape} (x lo hi : IVec s 32)
    (h : ∀ i, (lo i).toInt ≤ (x i).toInt ∧ (x i).toInt ≤ (hi i).toInt) : minsi hi (maxsi lo x) = x :=
  funext fun i => clip_of_mem (x i) (lo i) (hi i) (h i).1 (h i).2

/-! ## Wrapping a negative index -/

/-- The wrap `select(x < 0, x + n, x)` of a word that is not negative is the word: the signed comparison
    with zero answers the bit `0`, and the selection on bit `0` takes its second branch. -/
theorem wrap_of_nonneg (x n : BitVec 32) (hx : 0 ≤ x.toInt) :
    Scalar.select (IntOp.cmpi .slt x 0#32) (IntOp.addi x n) x = x := by
  have h0 : (0#32 : BitVec 32).toInt = 0 := by decide
  have hlt : x.slt 0#32 = false := slt_eq_false_of_le (by rw [h0]; exact hx)
  unfold IntOp.cmpi Scalar.select
  rw [hlt]
  rfl

/-- Wrapping a whole array of words, none of them negative, gives the array back; `zero` is any array
    that holds the word `0` everywhere (a broadcast constant) and `n` any array of offsets. -/
theorem wrap_vec_of_nonneg {s : Shape} (x zero n : IVec s 32) (hz : ∀ i, zero i = 0#32)
    (hx : ∀ i, 0 ≤ (x i).toInt) : select (cmpi .slt x zero) (addi x n) x = x :=
  funext fun i => by
    show Scalar.select (IntOp.cmpi .slt (x i) (zero i)) (IntOp.addi (x i) (n i)) (x i) = x i
    rw [hz i]
    exact wrap_of_nonneg (x i) (n i) (hx i)

/-! ## Clamping a start index into a table -/

/-- A start index whose signed value is a row number `k` of a table of `N` rows is clamped to `k`: read
    as a natural number it is `k`, and `k ≤ N - 1`. -/
theorem clamp_of_eq (x : BitVec 32) (N : Nat) (k : Fin N) (hx : x.toInt = (k.val : ℤ)) :
    min x.toInt.toNat (N - 1) = k.val := by
  have hk := k.isLt
  rw [hx, Int.toNat_natCast]
  exact Nat.min_eq_left (by omega)

/-- The clamped start index, as a row of the table, is `k` (whatever the proof that it is a row). -/
theorem clamp_fin_of_eq (x : BitVec 32) (N : Nat) (k : Fin N) (hx : x.toInt = (k.val : ℤ))
    (h : min x.toInt.toNat (N - 1) < N) : (⟨min x.toInt.toNat (N - 1), h⟩ : Fin N) = k :=
  Fin.ext (clamp_of_eq x N k hx)

/-! ## Between a word and its value -/

/-- The word of a natural number below `2 ^ 31` has that number as its signed value
    (`StableHlo.Predicate.toInt_ofNat_small`). -/
theorem toInt_ofNat_of_lt (n : ℕ) (hn : n < 2 ^ 31) : (BitVec.ofNat 32 n).toInt = (n : ℤ) :=
  StableHlo.Predicate.toInt_ofNat_small n hn

/-- The word of a row number of a table of at most `2 ^ 31` rows has that row number as its signed value. -/
theorem toInt_ofNat_fin {N : Nat} (hN : N ≤ 2 ^ 31) (k : Fin N) : (BitVec.ofNat 32 k.val).toInt = (k.val : ℤ) :=
  toInt_ofNat_of_lt k.val (lt_of_lt_of_le k.isLt hN)

/-- At ten thousand rows. -/
theorem toInt_ofNat_fin10000 (k : Fin 10000) : (BitVec.ofNat 32 k.val).toInt = (k.val : ℤ) :=
  toInt_ofNat_fin (by decide) k

/-- A word is determined by its signed value. -/
theorem eq_of_toInt_eq {x y : BitVec 32} (h : x.toInt = y.toInt) : x = y := BitVec.eq_of_toInt_eq h

/-- A word whose signed value is a natural number below `2 ^ 31` is the word of that number. -/
theorem eq_ofNat_of_toInt_eq {x : BitVec 32} {n : ℕ} (hn : n < 2 ^ 31) (hx : x.toInt = (n : ℤ)) :
    x = BitVec.ofNat 32 n :=
  eq_of_toInt_eq (by rw [hx, toInt_ofNat_of_lt n hn])

/-- A word whose signed value lies in `[0, N)` names a row of a table of `N` rows: its value read as a
    natural number is below `N`, and is the signed value again. -/
theorem toInt_eq_fin_of_mem {x : BitVec 32} {N : Nat} (h0 : 0 ≤ x.toInt) (hN : x.toInt < (N : ℤ)) :
    ∃ k : Fin N, x.toInt = (k.val : ℤ) :=
  ⟨⟨x.toInt.toNat, by omega⟩, by simp only [Int.toNat_of_nonneg h0]⟩

end Cert.LibIndexWords
-- ==== Proof.LibTakeAlongRows.lean ====
import Idealize.ShloMosaic.Lib.ValueIdx
import Idealize.ShloMosaic.PureOps.ShapeOps

/-!
# Taking one entry of each row: `jnp.take_along_axis(x, idx[:, None], axis=1)` read at an index

For a table `x` of `B` rows of `C` entries and one index per row, jnp's `take_along_axis` along axis 1 lowers to a gather
whose start indices are the `[B, 1, 1]` array of the indices, with the row axis a batching axis of operand and start
indices alike, the entry axis collapsed and named by the start index map, and slices of one entry. Its result is the
`[B, 1]` column whose entry in row `b` is `x[b, k]`, where `k` is the row's start index read as a signed number and
clamped into `[0, C - 1]` (`gather_apply`). For any sizes `B` and `C`; the dimension numbers are the record `dims`, which a
program's printed record is, by the equality of records with equal fields.
-/

namespace Cert.LibTakeAlongRows

open Idealize.ShloMosaic

variable {α : Type}

/-- The dimension numbers of the gather: no offset axes; the entry axis collapsed and the one axis the start index map
    names; the row axis batching on both sides; the index vector on the start indices' last axis; slices of one entry. -/
abbrev dims (B C : Nat)
    (wf : GatherDims.WF ⟨2, ![B, C]⟩ ⟨3, ![B, 1, 1]⟩ ⟨2, ![B, 1]⟩ [] [1] [0] [1] [0] 2 ![1, 1]) :
    GatherDims ⟨2, ![B, C]⟩ ⟨3, ![B, 1, 1]⟩ ⟨2, ![B, 1]⟩ where
  offsetDims := []
  collapsedSliceDims := [1]
  operandBatchingDims := [0]
  startIndicesBatchingDims := [0]
  startIndexMap := [1]
  indexVectorDim := 2
  sliceSizes := ![1, 1]
  wf := wf

/-- The start-indices index at which the result's index `(b, q)` reads its start index: `[b, q, 0]`, where `q` ranges
    over the one position of the result's second axis, so this is `[b, 0, 0]`. -/
abbrev siOf {B : Nat} (y : (⟨2, ![B, 1]⟩ : Shape).Idx) : (⟨3, ![B, 1, 1]⟩ : Shape).Idx :=
  fun a => match a with
    | ⟨0, _⟩ => ⟨(y 0).val, (y 0).isLt⟩
    | ⟨1, _⟩ => ⟨(y 1).val, (y 1).isLt⟩
    | ⟨2, _⟩ => ⟨0, Nat.one_pos⟩

/-- Entry `k` of row `y 0` of the table. -/
abbrev entryOf {B C : Nat} (y : (⟨2, ![B, 1]⟩ : Shape).Idx) (k : Nat) (hk : k < C) : (⟨2, ![B, C]⟩ : Shape).Idx :=
  fun a => match a with
    | ⟨0, _⟩ => ⟨(y 0).val, (y 0).isLt⟩
    | ⟨1, _⟩ => ⟨k, hk⟩

/-- On the row axis the operand index is the result's row: the start is zero on a batching axis, nothing is offset,
    and the batching coordinate is the row. -/
theorem coord_row {B C w : Nat}
    (wf : GatherDims.WF ⟨2, ![B, C]⟩ ⟨3, ![B, 1, 1]⟩ ⟨2, ![B, 1]⟩ [] [1] [0] [1] [0] 2 ![1, 1])
    (idx : IVec ⟨3, ![B, 1, 1]⟩ w) (y : (⟨2, ![B, 1]⟩ : Shape).Idx) :
    (dims B C wf).start y idx 0 + (dims B C wf).batchCoord y 0 + (dims B C wf).offCoord y 0 = (y 0).val := by
  have hb : (0 : Fin (⟨2, ![B, C]⟩ : Shape).rank) ∈ (dims B C wf).operandBatchingDims := List.mem_singleton.mpr rfl
  rw [GatherDims.start_batching _ _ _ _ hb,
    GatherDims.offCoord_eq_zero _ _ _ (fun h => ((GatherDims.mem_sKept _ _).mp h).2 hb)]
  simp only [Nat.zero_add, Nat.add_zero]
  unfold GatherDims.batchCoord
  rw [dif_pos hb]
  rfl

/-- On the entry axis the operand index is the row's start index, read signed and clamped into `[0, C - 1]`: the axis is
    neither batching nor kept, and it is the one the start index map names. -/
theorem coord_entry {B C w : Nat}
    (wf : GatherDims.WF ⟨2, ![B, C]⟩ ⟨3, ![B, 1, 1]⟩ ⟨2, ![B, 1]⟩ [] [1] [0] [1] [0] 2 ![1, 1])
    (idx : IVec ⟨3, ![B, 1, 1]⟩ w) (y : (⟨2, ![B, 1]⟩ : Shape).Idx) :
    (dims B C wf).start y idx 1 + (dims B C wf).batchCoord y 1 + (dims B C wf).offCoord y 1
      = min (idx (siOf y)).toInt.toNat (C - 1) := by
  have hnb : (1 : Fin (⟨2, ![B, C]⟩ : Shape).rank) ∉ (dims B C wf).operandBatchingDims :=
    fun h => absurd (List.mem_singleton.mp h) (show ¬(1 : Fin 2) = 0 by decide)
  have hc : (1 : Fin (⟨2, ![B, C]⟩ : Shape).rank) ∈ (dims B C wf).collapsedSliceDims := List.mem_singleton.mpr rfl
  have hm : (1 : Fin (⟨2, ![B, C]⟩ : Shape).rank) ∈ (dims B C wf).startIndexMap := List.mem_singleton.mpr rfl
  rw [GatherDims.batchCoord_eq_zero _ _ _ hnb,
    GatherDims.offCoord_eq_zero _ _ _ (fun h => ((GatherDims.mem_sKept _ _).mp h).1 hc)]
  simp only [Nat.add_zero]
  unfold GatherDims.start
  rw [dif_pos hm]
  have hsi : (dims B C wf).siIdx y ⟨List.idxOf (1 : Fin (⟨2, ![B, C]⟩ : Shape).rank) (dims B C wf).startIndexMap,
      List.idxOf_lt_length_iff.2 hm⟩ = siOf y := by
    funext b; refine Fin.ext ?_
    match b with
    | ⟨0, _⟩ => rfl
    | ⟨1, _⟩ => rfl
    | ⟨2, _⟩ => rfl
  rw [hsi]
  rfl

/-- THE GATHER READ AT ROW `b`: the table's entry in that row at the row's start index, read signed and clamped into
    `[0, C - 1]`. -/
theorem gather_apply {B C w : Nat} (hC : 0 < C)
    (wf : GatherDims.WF ⟨2, ![B, C]⟩ ⟨3, ![B, 1, 1]⟩ ⟨2, ![B, 1]⟩ [] [1] [0] [1] [0] 2 ![1, 1])
    (x : (⟨2, ![B, C]⟩ : Shape).Idx → α) (idx : IVec ⟨3, ![B, 1, 1]⟩ w) (y : (⟨2, ![B, 1]⟩ : Shape).Idx) :
    Host.gather (dims B C wf) x idx y = x (entryOf y (min (idx (siOf y)).toInt.toNat (C - 1)) (by omega)) := by
  unfold Host.gather
  congr 1
  funext a
  refine Fin.ext ?_
  show (dims B C wf).start y idx a + (dims B C wf).batchCoord y a + (dims B C wf).offCoord y a = _
  match a with
  | ⟨0, _⟩ => exact coord_row wf idx y
  | ⟨1, _⟩ => exact coord_entry wf idx y

end Cert.LibTakeAlongRows
-- ==== Proof.RefOps.lean ====
/-
  The reference program's 44 host operations in program order, each over the literal buffers it reads and the one it writes;
  the operations of the two functions the program calls (the row-wise log-softmax, the gather along the class axis) stand at
  their call sites. Every operation is given with the plain builder of its arity and its function between the buffers' contents.
-/
import proofs.«400259_j7292854469120_3_alg».proof.Proof.Gen.ReferenceIdeal
import Idealize.ShloMosaic.Lib.StableHlo.Run

noncomputable section

namespace Cert.ReferenceIdeal.HostOps

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [ nullary main_call0_cst ((constant S_ .f32 0xFF800000#32) : (⟨S_, .f32⟩ : BufTy).Contents (Elt F)),
    binary main_arg0 main_call0_cst main_call0_v0 ((fun x v => Host.reduce FloatOps.maximumf x v reducesTo_S8192x32000_S8192_d1 h_S_) : (⟨S8192x32000, .f32⟩ : BufTy).Contents (Elt F) → (⟨S_, .f32⟩ : BufTy).Contents (Elt F) → (⟨S8192, .f32⟩ : BufTy).Contents (Elt F)),
    nullary main_call0_cst_0 ((constant S_ .f32 0xFF800000#32) : (⟨S_, .f32⟩ : BufTy).Contents (Elt F)),
    unary main_call0_cst_0 main_call0_v1 ((broadcastInDim S8192 ![] bcast_S_S8192) : (⟨S_, .f32⟩ : BufTy).Contents (Elt F) → (⟨S8192, .f32⟩ : BufTy).Contents (Elt F)),
    binary main_call0_v1 main_call0_v0 main_call0_v2 (maximumf : (⟨S8192, .f32⟩ : BufTy).Contents (Elt F) → (⟨S8192, .f32⟩ : BufTy).Contents (Elt F) → (⟨S8192, .f32⟩ : BufTy).Contents (Elt F)),
    unary main_call0_v2 main_call0_v3 ((broadcastInDim S8192x1 ![0] bcast_S8192_S8192x1_0) : (⟨S8192, .f32⟩ : BufTy).Contents (Elt F) → (⟨S8192x1, .f32⟩ : BufTy).Contents (Elt F)),
    unary main_call0_v3 main_call0_v4 ((broadcastInDim S8192x32000 ![0, 1] bcast_S8192x1_S8192x32000_0_1) : (⟨S8192x1, .f32⟩ : BufTy).Contents (Elt F) → (⟨S8192x32000, .f32⟩ : BufTy).Contents (Elt F)),
    binary main_arg0 main_call0_v4 main_call0_v5 (subf : (⟨S8192x32000, .f32⟩ : BufTy).Contents (Elt F) → (⟨S8192x32000, .f32⟩ : BufTy).Contents (Elt F) → (⟨S8192x32000, .f32⟩ : BufTy).Contents (Elt F)),
    unary main_call0_v5 main_call0_v6 (Host.exp : (⟨S8192x32000, .f32⟩ : BufTy).Contents (Elt F) → (⟨S8192x32000, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S8192x32000_S8192_d1 h_S_) : (⟨S8192x32000, .f32⟩ : BufTy).Contents (Elt F) → (⟨S_, .f32⟩ : BufTy).Contents (Elt F) → (⟨S8192, .f32⟩ : BufTy).Contents (Elt F)),
    unary main_call0_v7 main_call0_v8 ((broadcastInDim S8192x1 ![0] bcast_S8192_S8192x1_0) : (⟨S8192, .f32⟩ : BufTy).Contents (Elt F) → (⟨S8192x1, .f32⟩ : BufTy).Contents (Elt F)),
    unary main_call0_v8 main_call0_v9 (Host.log : (⟨S8192x1, .f32⟩ : BufTy).Contents (Elt F) → (⟨S8192x1, .f32⟩ : BufTy).Contents (Elt F)),
    unary main_call0_v9 main_call0_v10 ((broadcastInDim S8192x32000 ![0, 1] bcast_S8192x1_S8192x32000_0_1) : (⟨S8192x1, .f32⟩ : BufTy).Contents (Elt F) → (⟨S8192x32000, .f32⟩ : BufTy).Contents (Elt F)),
    binary main_call0_v5 main_call0_v10 main_v0 (subf : (⟨S8192x32000, .f32⟩ : BufTy).Contents (Elt F) → (⟨S8192x32000, .f32⟩ : BufTy).Contents (Elt F) → (⟨S8192x32000, .f32⟩ : BufTy).Contents (Elt F)),
    unary main_arg1 main_v1 (broadcastInDim S8192x1 ![0] bcast_S8192_S8192x1_0 : (⟨S8192, .i32⟩ : BufTy).Contents (Elt F) → (⟨S8192x1, .i32⟩ : BufTy).Contents (Elt F)),
    nullary main_call1_c ((constantI S_ 32 0#32) : (⟨S_, .i32⟩ : BufTy).Contents (Elt F)),
    unary main_call1_c main_call1_v0 ((broadcastInDim S8192x1 ![] bcast_S_S8192x1) : (⟨S_, .i32⟩ : BufTy).Contents (Elt F) → (⟨S8192x1, .i32⟩ : BufTy).Contents (Elt F)),
    binary main_v1 main_call1_v0 main_call1_v1 ((cmpi .slt) : (⟨S8192x1, .i32⟩ : BufTy).Contents (Elt F) → (⟨S8192x1, .i32⟩ : BufTy).Contents (Elt F) → (⟨S8192x1, .i1⟩ : BufTy).Contents (Elt F)),
    nullary main_call1_c_0 ((constantI S_ 32 32000#32) : (⟨S_, .i32⟩ : BufTy).Contents (Elt F)),
    unary main_call1_c_0 main_call1_v2 ((broadcastInDim S8192x1 ![] bcast_S_S8192x1) : (⟨S_, .i32⟩ : BufTy).Contents (Elt F) → (⟨S8192x1, .i32⟩ : BufTy).Contents (Elt F)),
    binary main_v1 main_call1_v2 main_call1_v3 (addi : (⟨S8192x1, .i32⟩ : BufTy).Contents (Elt F) → (⟨S8192x1, .i32⟩ : BufTy).Contents (Elt F) → (⟨S8192x1, .i32⟩ : BufTy).Contents (Elt F)),
    ternary main_call1_v1 main_call1_v3 main_v1 main_call1_v4 (select : (⟨S8192x1, .i1⟩ : BufTy).Contents (Elt F) → (⟨S8192x1, .i32⟩ : BufTy).Contents (Elt F) → (⟨S8192x1, .i32⟩ : BufTy).Contents (Elt F) → (⟨S8192x1, .i32⟩ : BufTy).Contents (Elt F)),
    reshape main_call1_v4 main_call1_v5 rfl shapeCasts_S8192x1_S8192x1x1,
    nullary main_call1_c_1 ((constantI S1 32 31999#32) : (⟨S1, .i32⟩ : BufTy).Contents (Elt F)),
    nullary main_call1_c_2 ((constantI S_ 32 0#32) : (⟨S_, .i32⟩ : BufTy).Contents (Elt F)),
    unary main_call1_c_2 main_call1_v6 ((broadcastInDim S8192x1x1 ![] bcast_S_S8192x1x1) : (⟨S_, .i32⟩ : BufTy).Contents (Elt F) → (⟨S8192x1x1, .i32⟩ : BufTy).Contents (Elt F)),
    binary main_call1_v5 main_call1_v6 main_call1_v7 ((cmpi .sge) : (⟨S8192x1x1, .i32⟩ : BufTy).Contents (Elt F) → (⟨S8192x1x1, .i32⟩ : BufTy).Contents (Elt F) → (⟨S8192x1x1, .i1⟩ : BufTy).Contents (Elt F)),
    unary main_call1_c_1 main_call1_v8 ((broadcastInDim S1x1x1 ![2] bcast_S1_S1x1x1_2) : (⟨S1, .i32⟩ : BufTy).Contents (Elt F) → (⟨S1x1x1, .i32⟩ : BufTy).Contents (Elt F)),
    unary main_call1_v8 main_call1_v9 ((broadcastInDim S8192x1x1 ![0, 1, 2] bcast_S1x1x1_S8192x1x1_0_1_2) : (⟨S1x1x1, .i32⟩ : BufTy).Contents (Elt F) → (⟨S8192x1x1, .i32⟩ : BufTy).Contents (Elt F)),
    binary main_call1_v5 main_call1_v9 main_call1_v10 ((cmpi .sle) : (⟨S8192x1x1, .i32⟩ : BufTy).Contents (Elt F) → (⟨S8192x1x1, .i32⟩ : BufTy).Contents (Elt F) → (⟨S8192x1x1, .i1⟩ : BufTy).Contents (Elt F)),
    binary main_call1_v7 main_call1_v10 main_call1_v11 (andi : (⟨S8192x1x1, .i1⟩ : BufTy).Contents (Elt F) → (⟨S8192x1x1, .i1⟩ : BufTy).Contents (Elt F) → (⟨S8192x1x1, .i1⟩ : BufTy).Contents (Elt F)),
    nullary main_call1_c_3 ((constantI S_ 1 1#1) : (⟨S_, .i1⟩ : BufTy).Contents (Elt F)),
    binary main_call1_v11 main_call1_c_3 main_call1_v12 ((fun x v => Host.reduce IntOp.andi x v reducesTo_S8192x1x1_S8192x1_d2 h_S_) : (⟨S8192x1x1, .i1⟩ : BufTy).Contents (Elt F) → (⟨S_, .i1⟩ : BufTy).Contents (Elt F) → (⟨S8192x1, .i1⟩ : BufTy).Contents (Elt F)),
    binary main_v0 main_call1_v5 main_call1_v13 ((fun x i => Host.gather gather_S8192x32000_S8192x1x1_S8192x1_n_1_0_0_1_2_11 x i) : (⟨S8192x32000, .f32⟩ : BufTy).Contents (Elt F) → (⟨S8192x1x1, .i32⟩ : BufTy).Contents (Elt F) → (⟨S8192x1, .f32⟩ : BufTy).Contents (Elt F)),
    nullary main_call1_cst ((constant S_ .f32 0x7FC00000#32) : (⟨S_, .f32⟩ : BufTy).Contents (Elt F)),
    unary main_call1_cst main_call1_v14 ((broadcastInDim S8192x1 ![] bcast_S_S8192x1) : (⟨S_, .f32⟩ : BufTy).Contents (Elt F) → (⟨S8192x1, .f32⟩ : BufTy).Contents (Elt F)),
    ternary main_call1_v12 main_call1_v13 main_call1_v14 main_v2 (select : (⟨S8192x1, .i1⟩ : BufTy).Contents (Elt F) → (⟨S8192x1, .f32⟩ : BufTy).Contents (Elt F) → (⟨S8192x1, .f32⟩ : BufTy).Contents (Elt F) → (⟨S8192x1, .f32⟩ : BufTy).Contents (Elt F)),
    reshape main_v2 main_v3 rfl shapeCasts_S8192x1_S8192,
    nullary main_cst (constant S_ .f32 0x00000000#32),
    binary main_v3 main_cst main_v4 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v4 main_v5 (Host.negf : (⟨S_, .f32⟩ : BufTy).Contents (Elt F) → (⟨S_, .f32⟩ : BufTy).Contents (Elt F)),
    nullary main_cst_0 (constant S_ .f32 0x46000000#32),
    binary main_v5 main_cst_0 main_v6 (Host.divf : (⟨S_, .f32⟩ : BufTy).Contents (Elt F) → (⟨S_, .f32⟩ : BufTy).Contents (Elt F) → (⟨S_, .f32⟩ : BufTy).Contents (Elt F)) ]

end Cert.ReferenceIdeal.HostOps

end
-- ==== Proof.RefRun.lean ====
/-
  The reference program's run read back. Its @main is a straight line of host operations (the list `HostOps.ops`), so
  every weakly fair execution terminates, the argument arrays end unchanged, and the result buffer ends at the operations'
  composed term of the arguments: the row-wise log-softmax of the logits, gathered at each row's label (a negative label
  wrapped by the row length, a label outside the row read as the fill value), summed over the rows, negated and divided
  by the number of rows.

  That @main is that line is a comparison of the two texts one operation at a time: the program spells the called
  functions' operations over typed references, whose transports of a buffer's contents to its literal type and back are
  identities; the comparison keeps every operation's own definition folded, so that only those transports are reduced.
-/
import proofs.«400259_j7292854469120_3_alg».proof.Proof.RefOps

noncomputable section

namespace Cert.ReferenceIdeal.HostRun

open Cert.ReferenceIdeal Cert.ReferenceIdeal.Gen Cert.ReferenceIdeal.HostOps Idealize.ShloMosaic Idealize.ShloMosaic.TcCoe Idealize.SL.Sem Idealize.ShloMosaic.StableHlo

variable {F : FTy → Type} [FloatOps F]

attribute [local irreducible] Host.reduce Host.reduceAdd Host.gather Host.divf Host.negf Host.exp Host.log select andi addi cmpi subf maximumf broadcastInDim shapeCast constant constantI in
set_option maxRecDepth 8192 in
/-- @main is the line of its operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore buffers only. -/
theorem ops_sub : (ops : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub .., nullary_bufs_sub .., binary_bufs_sub .., unary_bufs_sub .., nullary_bufs_sub .., binary_bufs_sub ..⟩

set_option maxRecDepth 8192 in
set_option maxHeartbeats 2000000 in
/-- On every device, for any float values, from any memory with zero counters: every weakly fair execution of @main
    terminates with the result at the operations' composed term of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6) = Host.divf (Host.negf (Host.reduceAdd (shapeCast _ (select (Host.reduce IntOp.andi (andi (cmpi .sge (shapeCast _ (select (cmpi .slt (broadcastInDim S8192x1 ![0] bcast_S8192_S8192x1_0 (m ((c.tc : Thread nD τ).loc main_arg1))) (broadcastInDim S8192x1 ![] bcast_S_S8192x1 (constantI S_ 32 0#32))) (addi (broadcastInDim S8192x1 ![0] bcast_S8192_S8192x1_0 (m ((c.tc : Thread nD τ).loc main_arg1))) (broadcastInDim S8192x1 ![] bcast_S_S8192x1 (constantI S_ 32 32000#32))) (broadcastInDim S8192x1 ![0] bcast_S8192_S8192x1_0 (m ((c.tc : Thread nD τ).loc main_arg1)))) shapeCasts_S8192x1_S8192x1x1) (broadcastInDim S8192x1x1 ![] bcast_S_S8192x1x1 (constantI S_ 32 0#32))) (cmpi .sle (shapeCast _ (select (cmpi .slt (broadcastInDim S8192x1 ![0] bcast_S8192_S8192x1_0 (m ((c.tc : Thread nD τ).loc main_arg1))) (broadcastInDim S8192x1 ![] bcast_S_S8192x1 (constantI S_ 32 0#32))) (addi (broadcastInDim S8192x1 ![0] bcast_S8192_S8192x1_0 (m ((c.tc : Thread nD τ).loc main_arg1))) (broadcastInDim S8192x1 ![] bcast_S_S8192x1 (constantI S_ 32 32000#32))) (broadcastInDim S8192x1 ![0] bcast_S8192_S8192x1_0 (m ((c.tc : Thread nD τ).loc main_arg1)))) shapeCasts_S8192x1_S8192x1x1) (broadcastInDim S8192x1x1 ![0, 1, 2] bcast_S1x1x1_S8192x1x1_0_1_2 (broadcastInDim S1x1x1 ![2] bcast_S1_S1x1x1_2 (constantI S1 32 31999#32))))) (constantI S_ 1 1#1) reducesTo_S8192x1x1_S8192x1_d2 h_S_) (Host.gather gather_S8192x32000_S8192x1x1_S8192x1_n_1_0_0_1_2_11 (subf (subf (m ((c.tc : Thread nD τ).loc main_arg0)) (broadcastInDim S8192x32000 ![0, 1] bcast_S8192x1_S8192x32000_0_1 (broadcastInDim S8192x1 ![0] bcast_S8192_S8192x1_0 (maximumf (broadcastInDim S8192 ![] bcast_S_S8192 (constant S_ .f32 0xFF800000#32)) (Host.reduce FloatOps.maximumf (m ((c.tc : Thread nD τ).loc main_arg0)) (constant S_ .f32 0xFF800000#32) reducesTo_S8192x32000_S8192_d1 h_S_))))) (broadcastInDim S8192x32000 ![0, 1] bcast_S8192x1_S8192x32000_0_1 (Host.log (broadcastInDim S8192x1 ![0] bcast_S8192_S8192x1_0 (Host.reduceAdd (Host.exp (subf (m ((c.tc : Thread nD τ).loc main_arg0)) (broadcastInDim S8192x32000 ![0, 1] bcast_S8192x1_S8192x32000_0_1 (broadcastInDim S8192x1 ![0] bcast_S8192_S8192x1_0 (maximumf (broadcastInDim S8192 ![] bcast_S_S8192 (constant S_ .f32 0xFF800000#32)) (Host.reduce FloatOps.maximumf (m ((c.tc : Thread nD τ).loc main_arg0)) (constant S_ .f32 0xFF800000#32) reducesTo_S8192x32000_S8192_d1 h_S_)))))) (constant S_ .f32 0x00000000#32) reducesTo_S8192x32000_S8192_d1 h_S_))))) (shapeCast _ (select (cmpi .slt (broadcastInDim S8192x1 ![0] bcast_S8192_S8192x1_0 (m ((c.tc : Thread nD τ).loc main_arg1))) (broadcastInDim S8192x1 ![] bcast_S_S8192x1 (constantI S_ 32 0#32))) (addi (broadcastInDim S8192x1 ![0] bcast_S8192_S8192x1_0 (m ((c.tc : Thread nD τ).loc main_arg1))) (broadcastInDim S8192x1 ![] bcast_S_S8192x1 (constantI S_ 32 32000#32))) (broadcastInDim S8192x1 ![0] bcast_S8192_S8192x1_0 (m ((c.tc : Thread nD τ).loc main_arg1)))) shapeCasts_S8192x1_S8192x1x1)) (broadcastInDim S8192x1 ![] bcast_S_S8192x1 (constant S_ .f32 0x7FC00000#32))) shapeCasts_S8192x1_S8192) (constant S_ .f32 0x00000000#32) reducesTo_S8192_S_d0 h_S_)) (constant S_ .f32 0x46000000#32)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v6).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.HostRun

end
-- ==== Proof.RefStages.lean ====
/-
  The reference's log-softmax read at an index, for a table of real logits.

  The row maximum is a fold of the maximum over the class axis started from -∞; over reals it is the row's maximum.
  The log-softmax at row `b` and class `v` is then `(x[b,v] - M) - log (∑_u exp (x[b,u] - M))` with `M` that maximum: every
  operation on the way meets real numbers only (the sum is positive, so its logarithm is the real one).
-/
import proofs.«400259_j7292854469120_3_alg».proof.Proof.RefRead
import proofs.«400259_j7292854469120_3_alg».proof.Proof.LossSpec
import Idealize.ShloMosaic.PureOps.Ideal.Laws
import Idealize.ShloMosaic.Lib.ValueIdx

noncomputable section

namespace Cert.ReferenceIdeal.Stages

open Cert.ReferenceIdeal Cert.ReferenceIdeal.Gen Cert.ReferenceIdeal.ReadP Idealize.ShloMosaic Idealize.ShloMosaic.ValueIdx
open Cert.LibOnline Cert.LossSpec
open scoped BigOperators

/-- A row index with the class coordinate put back is (row, class). -/
theorem lift_row (h : S8192x32000.Reduces [1] S8192) (b : Fin 8192) (k : Fin (S8192x32000.size 1)) :
    h.lift (ix1 b) k = ix2 b (⟨k.val, k.isLt⟩ : Fin 32000) := by
  funext c; apply Fin.ext
  fin_cases c <;> rfl

theorem idx_rowmax (b : Fin 8192) (v : Fin 32000) : idx_main_call0_v3 (idx_main_call0_v4 (ix2 b v)) = ix1 b := by
  funext a; match a with | ⟨0, _⟩ => rfl

theorem idx_rowsum (b : Fin 8192) (v : Fin 32000) : idx_main_call0_v8 (idx_main_call0_v10 (ix2 b v)) = ix1 b := by
  funext a; match a with | ⟨0, _⟩ => rfl

theorem idx_summand (b : Fin 8192) (k : Fin 32000) : idx_main_call0_v7 (ix1 b) k = ix2 b k := by
  funext a; match a with | ⟨0, _⟩ => rfl | ⟨1, _⟩ => rfl

variable (x : (⟨S8192x32000, .f32⟩ : BufTy).Contents (Elt Ideal)) (X : Fin 8192 → Fin 32000 → ℝ)
  (hx : ∀ b v, x (ix2 b v) = ((X b v : ℝ) : EReal))
include hx

/-- The row maximum: from -∞ the fold of the maximum over the row's 32000 reals is their maximum. -/
theorem rowmax (b : Fin 8192) : val_main_call0_v0 (F := Ideal) x (ix1 b) = ((tileMax (X b) : ℝ) : EReal) := by
  have hR : S8192x32000.Reduces [1] S8192 := by decide
  unfold val_main_call0_v0
  rw [Host.reduce_eq_fold_single (α := Ideal .f32) (FloatOps.maximumf (F := Ideal) (φ := .f32)) x _
    reducesTo_S8192x32000_S8192_d1 hR h_S_]
  have hinit : val_main_call0_cst (F := Ideal) (Shape.Idx.first h_S_) = (⊥ : EReal) := by
    simp [val_main_call0_cst, constant, Ideal.ofBits, Ideal.ieee]
  have hfun : (x ∘ hR.lift (ix1 b))
      = fun k : Fin (S8192x32000.size 1) => ((X b (⟨k.val, k.isLt⟩ : Fin 32000) : ℝ) : EReal) := by
    funext k
    simp only [Function.comp, lift_row hR b k, hx]
  rw [hinit, hfun]
  show (Finset.univ : Finset (Fin 32000)).fold max (⊥ : EReal) (fun k => ((X b k : ℝ) : EReal)) = _
  exact fold_max_coe (X b)

/-- The broadcast row maximum, at any class of row `b`: the larger of -∞ and the row's maximum. -/
theorem rowmax_bcast (b : Fin 8192) (w : Fin 32000) :
    val_main_call0_v4 (F := Ideal) x (ix2 b w) = ((tileMax (X b) : ℝ) : EReal) := by
  rw [val_main_call0_v4_apply, val_main_call0_v3_apply, val_main_call0_v2_apply, idx_rowmax, rowmax x X hx b,
    val_main_call0_v1_apply, val_main_call0_cst_0_apply]
  simp [Ideal.ofBits, Ideal.ieee]

/-- The shifted logit. -/
theorem shifted_at (b : Fin 8192) (w : Fin 32000) :
    val_main_call0_v5 (F := Ideal) x (ix2 b w) = ((X b w - tileMax (X b) : ℝ) : EReal) := by
  rw [val_main_call0_v5_apply, rowmax_bcast x X hx b w, hx b w, Ideal.subf_def, ← EReal.coe_sub]

/-- The row's sum of exponentials of the shifted logits. -/
theorem rowsum (b : Fin 8192) :
    val_main_call0_v7 (F := Ideal) x (ix1 b) = ((∑ u : Fin 32000, Real.exp (X b u - tileMax (X b)) : ℝ) : EReal) := by
  rw [val_main_call0_v7_apply]
  have hs : ∀ k : Fin 32000, val_main_call0_v6 (F := Ideal) x (idx_main_call0_v7 (ix1 b) k)
      = ((Real.exp (X b k - tileMax (X b)) : ℝ) : EReal) := by
    intro k
    rw [val_main_call0_v6_apply, idx_summand, shifted_at x X hx b k, Ideal.hostUnary_exp_def, Ideal.exp_coe]
  simp only [hs]
  rw [coe_sum]
  simp [val_main_call0_cst_1, constant, Ideal.ofBits, Ideal.ieee]

/-- THE LOG-SOFTMAX AT (b, v). -/
theorem logsoftmax_at (b : Fin 8192) (v : Fin 32000) :
    val_main_v0 (F := Ideal) x (ix2 b v)
      = (((X b v - tileMax (X b)) - Real.log (∑ u : Fin 32000, Real.exp (X b u - tileMax (X b))) : ℝ) : EReal) := by
  have hpos : 0 < ∑ u : Fin 32000, Real.exp (X b u - tileMax (X b)) :=
    Finset.sum_pos (fun u _ => Real.exp_pos _) Finset.univ_nonempty
  rw [val_main_v0_apply, shifted_at x X hx b v, val_main_call0_v10_apply, val_main_call0_v9_apply,
    val_main_call0_v8_apply, idx_rowsum, rowsum x X hx b, Ideal.hostUnary_log_def, ideal_log_coe_pos hpos,
    Ideal.subf_def, ← EReal.coe_sub]

end Cert.ReferenceIdeal.Stages

end
-- ==== Proof.RefValue.lean ====
/-
  The reference's result is the loss.

  For a table of real logits and labels that are class indices, the reference takes, in each row, the log-softmax at the
  row's label and returns minus the mean of these over the rows.

  The label column passes the wrap of negative indices unchanged (a class index is not negative) and is reshaped into the
  start indices of a gather. The mask that guards the gather is, in each row, the conjunction over an axis of one position
  of the bit "0 ≤ index ≤ 31999", which is 1 for a class index. The gather, taking one entry of each row, reads the
  log-softmax at the row's label: the start index, read signed and clamped into [0, 31999], is the label. The select on
  the bit 1 keeps the gathered entry, which is the row's logit at its label minus the row's log-sum-exp.

  The sum over the 8192 rows, negated and divided by 8192, is then the mean over the rows of the row's log-sum-exp minus
  the row's logit at its label.
-/
import proofs.«400259_j7292854469120_3_alg».proof.Proof.RefStages
import proofs.«400259_j7292854469120_3_alg».proof.Proof.LibIndexWords
import proofs.«400259_j7292854469120_3_alg».proof.Proof.LibTakeAlongRows
import Idealize.ShloMosaic.PureOps.Reduce
import Idealize.ShloMosaic.Lib.StableHlo.Predicate

noncomputable section
namespace Cert.ReferenceIdeal.RefValue
open Cert.ReferenceIdeal Cert.ReferenceIdeal.Gen Cert.ReferenceIdeal.ReadP Idealize.ShloMosaic Idealize.ShloMosaic.ValueIdx
open Cert.LibOnline Cert.LossSpec
open scoped BigOperators

/-! ## Index equations -/

theorem idx_label (b : Fin 8192) : idx_main_v1 (ix2 b 0) = ix1 b := by
  funext a; match a with | ⟨0, _⟩ => rfl

theorem idx_reshape3 (b : Fin 8192) : idx_main_call1_v5 (ix3 b 0 0) = ix2 b 0 := by
  funext a; apply Fin.ext
  match a with
  | ⟨0, _⟩ => show ((b.val * 1 + 0) * 1 + 0) / 1 = b.val; omega
  | ⟨1, _⟩ => rfl

/-! ## Words -/

theorem sge_zero_of_nonneg (w : BitVec 32) (h : 0 ≤ w.toInt) : IntOp.cmpi .sge w 0#32 = 1#1 := by
  have h0 : (0#32 : BitVec 32).toInt = 0 := by decide
  unfold IntOp.cmpi
  rw [StableHlo.Predicate.ofBool_eq_one_iff]
  simp only [BitVec.sle, decide_eq_true_eq]
  rw [h0]; exact h

theorem sle_top_of_lt (w : BitVec 32) (h : w.toInt < 32000) : IntOp.cmpi .sle w 31999#32 = 1#1 := by
  have h0 : (31999#32 : BitVec 32).toInt = 31999 := by decide
  unfold IntOp.cmpi
  rw [StableHlo.Predicate.ofBool_eq_one_iff]
  simp only [BitVec.sle, decide_eq_true_eq]
  rw [h0]; omega

theorem andi_one_one : IntOp.andi 1#1 1#1 = 1#1 := by decide

section Rows

variable (t : (⟨S8192, .i32⟩ : BufTy).Contents (Elt Ideal)) (lab : Fin 8192 → Fin 32000)
  (hlab : ∀ b, (t (ix1 b)).toInt = ((lab b).val : ℤ))
include hlab

/-- The label column at row `b` is the row's label. -/
theorem label_col (b : Fin 8192) : val_main_v1 (F := Ideal) t (ix2 b 0) = t (ix1 b) := by
  rw [val_main_v1_apply, idx_label]

/-- The wrap of a negative index leaves a class index alone. -/
theorem wrapped (b : Fin 8192) : val_main_call1_v4 (F := Ideal) t (ix2 b 0) = t (ix1 b) := by
  rw [val_main_call1_v4_apply, val_main_call1_v1_apply, val_main_call1_v3_apply, val_main_call1_v0_apply,
    val_main_call1_c_apply, val_main_call1_v2_apply, val_main_call1_c_0_apply, label_col t lab hlab b]
  exact Cert.LibIndexWords.wrap_of_nonneg _ _ (by rw [hlab]; exact Int.natCast_nonneg _)

/-- The start indices at row `b`. -/
theorem start_index (b : Fin 8192) : val_main_call1_v5 (F := Ideal) t (ix3 b 0 0) = t (ix1 b) := by
  rw [val_main_call1_v5_apply, idx_reshape3, wrapped t lab hlab b]

/-- The in-range bit at row `b` is 1. -/
theorem inrange_bit (b : Fin 8192) : val_main_call1_v11 (F := Ideal) t (ix3 b 0 0) = 1#1 := by
  have hk := (lab b).isLt
  rw [val_main_call1_v11_apply, val_main_call1_v7_apply, val_main_call1_v10_apply, val_main_call1_v6_apply,
    val_main_call1_c_2_apply, val_main_call1_v9_apply, val_main_call1_v8_apply, val_main_call1_c_1_apply,
    start_index t lab hlab b,
    sge_zero_of_nonneg _ (by rw [hlab]; exact Int.natCast_nonneg _),
    sle_top_of_lt _ (by rw [hlab]; omega)]
  exact andi_one_one

/-! ## The mask -/

omit hlab in
/-- The one index of the reduced axis over row `b`. -/
theorem lift_start (h : S8192x1x1.Reduces [2] S8192x1) (b : Fin 8192) (k : Fin (S8192x1x1.size 2)) :
    h.lift (ix2 b 0) k = ix3 b 0 0 := by
  have hk : k.val < 1 := k.isLt
  funext c; apply Fin.ext
  fin_cases c
  · rfl
  · rfl
  · show k.val = 0; omega

omit hlab in
/-- A conjunction of ones from one is one. -/
theorem fold_andi_ones {ι : Type} [DecidableEq ι] (s : Finset ι) :
    s.fold IntOp.andi 1#1 (fun _ => (1#1 : BitVec 1)) = 1#1 := by
  refine Finset.induction_on s ?_ ?_
  · exact Finset.fold_empty
  · intro a s ha ih
    rw [Finset.fold_insert ha, ih]
    exact andi_one_one

/-- The mask at row `b` is 1: the conjunction over the one position of the reduced axis of the in-range bit. -/
theorem mask_one (b : Fin 8192) : val_main_call1_v12 (F := Ideal) t (ix2 b 0) = 1#1 := by
  have hR : S8192x1x1.Reduces [2] S8192x1 := by decide
  unfold val_main_call1_v12
  rw [Host.reduce_eq_fold_single (α := BitVec 1) IntOp.andi (val_main_call1_v11 (F := Ideal) t) _
    reducesTo_S8192x1x1_S8192x1_d2 hR h_S_]
  have hfun : (val_main_call1_v11 (F := Ideal) t ∘ hR.lift (ix2 b 0)) = fun _ => (1#1 : BitVec 1) := by
    funext k
    simp only [Function.comp, lift_start hR b k]
    exact inrange_bit t lab hlab b
  rw [hfun, val_main_call1_c_3_apply]
  exact fold_andi_ones _

/-! ## The gather and the select -/

omit hlab in
theorem idx_entry (b : Fin 8192) (k : Fin 32000) :
    Cert.LibTakeAlongRows.entryOf (B := 8192) (C := 32000) (ix2 b 0) k.val k.isLt = ix2 b k := by
  funext a; match a with | ⟨0, _⟩ => rfl | ⟨1, _⟩ => rfl

omit hlab in
theorem si_start (b : Fin 8192) : Cert.LibTakeAlongRows.siOf (B := 8192) (ix2 b 0) = ix3 b 0 0 := by
  funext a; match a with | ⟨0, _⟩ => rfl | ⟨1, _⟩ => rfl | ⟨2, _⟩ => rfl

variable (x : (⟨S8192x32000, .f32⟩ : BufTy).Contents (Elt Ideal))

/-- The gather at row `b` reads the log-softmax at the row's label. -/
theorem gathered (b : Fin 8192) :
    val_main_call1_v13 (F := Ideal) x t (ix2 b 0) = val_main_v0 (F := Ideal) x (ix2 b (lab b)) := by
  unfold val_main_call1_v13
  have hd : gather_S8192x32000_S8192x1x1_S8192x1_n_1_0_0_1_2_11
      = Cert.LibTakeAlongRows.dims 8192 32000 gather_S8192x32000_S8192x1x1_S8192x1_n_1_0_0_1_2_11_wf := rfl
  rw [hd, Cert.LibTakeAlongRows.gather_apply (by decide : 0 < 32000)]
  have hs : val_main_call1_v5 (F := Ideal) t (Cert.LibTakeAlongRows.siOf (B := 8192) (ix2 b 0)) = t (ix1 b) := by
    rw [si_start, start_index t lab hlab b]
  have hm : min (val_main_call1_v5 (F := Ideal) t (Cert.LibTakeAlongRows.siOf (B := 8192) (ix2 b 0))).toInt.toNat (32000 - 1)
      = (lab b).val := by
    rw [hs]; exact Cert.LibIndexWords.clamp_of_eq _ 32000 (lab b) (hlab b)
  congr 1
  funext a
  match a with
  | ⟨0, _⟩ => rfl
  | ⟨1, _⟩ => exact Fin.ext hm

variable (X : Fin 8192 → Fin 32000 → ℝ) (hx : ∀ b v, x (ix2 b v) = ((X b v : ℝ) : EReal))
include hx

/-- The selected column at row `b`: the row's logit at its label minus the row's log-sum-exp. -/
theorem picked (b : Fin 8192) :
    val_main_v2 (F := Ideal) x t (ix2 b 0) = ((X b (lab b) - rowLse (X b) : ℝ) : EReal) := by
  rw [val_main_v2_apply, mask_one t lab hlab b, gathered t lab hlab x b, select_one,
    Cert.ReferenceIdeal.Stages.logsoftmax_at x X hx b (lab b), shifted_logprob]

/-! ## The mean -/

omit hlab hx in
theorem idx_flat (b : Fin 8192) : idx_main_v3 (ix1 b) = ix2 b 0 := by
  funext a; apply Fin.ext
  match a with
  | ⟨0, _⟩ => show b.val / 1 = b.val; omega
  | ⟨1, _⟩ => rfl

theorem flat (b : Fin 8192) :
    val_main_v3 (F := Ideal) x t (ix1 b) = ((X b (lab b) - rowLse (X b) : ℝ) : EReal) := by
  rw [val_main_v3_apply, idx_flat, picked t lab hlab x X hx b]

/-- The rows of the batch as the indices of the rank-1 shape. -/
def rowEquiv : Fin 8192 ≃ S8192.Idx where
  toFun := ix1
  invFun j := j 0
  left_inv _ := rfl
  right_inv j := (eq_ix1 j).symm

omit hlab hx in
theorem ofBits_zero : Ideal.ofBits .f32 0x00000000#32 = 0 := by
  simp [Ideal.ofBits, Ideal.ieee]

omit hlab hx in
theorem ofBits_8192 : Ideal.ofBits .f32 0x46000000#32 = ((8192 : ℝ) : EReal) := by
  simp [Ideal.ofBits, Ideal.ieee, -EReal.coe_mul]; norm_num

/-- The sum over the rows. -/
theorem total (i : S_.Idx) :
    val_main_v4 (F := Ideal) x t i = ((∑ b : Fin 8192, (X b (lab b) - rowLse (X b)) : ℝ) : EReal) := by
  rw [val_main_v4_apply]
  have hsum : ∑ j : S8192.Idx, val_main_v3 (F := Ideal) x t j
      = ∑ b : Fin 8192, ((X b (lab b) - rowLse (X b) : ℝ) : EReal) := by
    rw [← Equiv.sum_comp rowEquiv]
    exact Finset.sum_congr rfl fun b _ => flat t lab hlab x X hx b
  rw [hsum, ← coe_sum, val_main_cst_apply]
  show Ideal.ofBits .f32 0x00000000#32 + _ = _
  rw [ofBits_zero, zero_add]

/-- Minus the sum over the rows, divided by the number of rows, is the loss. -/
theorem mean_value :
    val_main_v6 (F := Ideal) x t = fun _ => ((loss X lab : ℝ) : EReal) := by
  funext i
  rw [val_main_v6_apply, val_main_v5_apply, total t lab hlab x X hx i, val_main_cst_0_apply,
    Ideal.hostNegf_def, Ideal.negf_def, Ideal.hostDivf_def]
  show Ideal.div _ (Ideal.ofBits .f32 0x46000000#32) = _
  rw [ofBits_8192, Ideal.div_coe (by norm_num : (8192 : ℝ) ≠ 0), ← EReal.coe_neg, ← EReal.coe_mul,
    ← neg_mean_logprob X lab]
  congr 1
  ring

end Rows

/-- The reference's result, for real logits and labels that are class indices, is the loss. -/
theorem ref_value (x : (⟨S8192x32000, .f32⟩ : BufTy).Contents (Elt Ideal)) (t : (⟨S8192, .i32⟩ : BufTy).Contents (Elt Ideal))
    (X : Fin 8192 → Fin 32000 → ℝ) (lab : Fin 8192 → Fin 32000)
    (hx : ∀ b v, x (ix2 b v) = ((X b v : ℝ) : EReal)) (hlab : ∀ b, (t (ix1 b)).toInt = ((lab b).val : ℤ)) :
    val_main_v6 (F := Ideal) x t = fun _ => ((loss X lab : ℝ) : EReal) :=
  mean_value t lab hlab x X hx

end Cert.ReferenceIdeal.RefValue
end
-- ==== Proof.KernelTailValue.lean ====
/-
  The operations after the kernel region compute the loss.

  For a table of real logits, labels that are class indices and a column that holds each row's log-sum-exp, the tail
  takes from each row the logit at the row's label and returns the mean over the rows of the row's log-sum-exp minus
  that logit.

  The labels pass the clip into [0, 31999] unchanged (a class index lies in that range), are laid as a column, pass the
  wrap of negative indices unchanged (a class index is not negative) and are reshaped into the start indices of a gather.
  The guard is, in each row, the conjunction over an axis of one position of the bit "0 ≤ index ≤ 31999", which is 1 for
  a class index. The gather, taking one entry of each row, reads the logit at the row's label: the start index, read
  signed and clamped into [0, 31999], is the label. The select on the bit 1 keeps the gathered entry.

  The sum over the 8192 rows of the differences, divided by 8192, is the loss by its definition.
-/
import proofs.«400259_j7292854469120_3_alg».proof.Proof.KernelTail
import proofs.«400259_j7292854469120_3_alg».proof.Proof.LossSpec
import proofs.«400259_j7292854469120_3_alg».proof.Proof.LibIndexWords
import proofs.«400259_j7292854469120_3_alg».proof.Proof.LibTakeAlongRows
import proofs.«400259_j7292854469120_3_alg».proof.Proof.RefValue
import Idealize.ShloMosaic.PureOps.Ideal
import Idealize.ShloMosaic.PureOps.Ideal.Laws
import Idealize.ShloMosaic.PureOps.Reduce
import Idealize.ShloMosaic.Lib.ValueIdx
import Idealize.ShloMosaic.Lib.StableHlo.Predicate
import Idealize.ShloMosaic.Lib.Pipeline.Value

noncomputable section
namespace Cert.KernelIdeal.TailValue
open Cert.KernelIdeal Cert.KernelIdeal.Gen Cert.KernelIdeal.Tail Idealize.ShloMosaic Idealize.ShloMosaic.ValueIdx
open Cert.LibOnline Cert.LossSpec
open scoped BigOperators

/-! ## The labels down to the start indices -/

section Labels

variable (t : IVec S8192 32) (lab : Fin 8192 → Fin 32000)
  (hlab : ∀ b, (t (ix1 b)).toInt = ((lab b).val : ℤ))
include hlab

/-- The clip into [0, 31999] leaves a class index alone. -/
theorem clipped_row (b : Fin 8192) : clipped t (ix1 b) = t (ix1 b) := by
  have htop : (31999#32 : BitVec 32).toInt = ((32000 - 1 : ℕ) : ℤ) := by decide
  show IntOp.minsi (broadcastInDim S8192 ![] bcast_S_S8192 (id (constantI S_ 32 31999#32)) (ix1 b))
      (IntOp.maxsi (broadcastInDim S8192 ![] bcast_S_S8192 (id (constantI S_ 32 0#32)) (ix1 b)) (t (ix1 b))) = t (ix1 b)
  rw [StableHlo.Predicate.bcast_scalar _ h_S_, StableHlo.Predicate.bcast_scalar _ h_S_]
  show IntOp.minsi 31999#32 (IntOp.maxsi 0#32 (t (ix1 b))) = t (ix1 b)
  exact Cert.LibIndexWords.clip_of_fin (N := 32000) _ _ (lab b) (hlab b) htop

/-- The label column at row `b` is the row's label. -/
theorem labelCol_row (b : Fin 8192) : labelCol t (ix2 b 0) = t (ix1 b) := by
  have h : labelCol t (ix2 b 0) = clipped t (ix1 b) := by
    unfold labelCol
    generalize clipped t = y
    exact broadcastInDim_apply _ bcast_S8192_S8192x1_0 y (ix2 b 0) (ix1 b) (fun a => match a with
      | ⟨0, _⟩ => by show b.val = if (8192 : Nat) = 1 then 0 else b.val; rw [if_neg (by decide)])
  rw [h, clipped_row t lab hlab b]

/-- The wrap of a negative index leaves a class index alone. -/
theorem wrapped_row (b : Fin 8192) : wrapped t (ix2 b 0) = t (ix1 b) := by
  show Scalar.select
      (IntOp.cmpi .slt (labelCol t (ix2 b 0)) (broadcastInDim S8192x1 ![] bcast_S_S8192x1 (constantI S_ 32 0#32) (ix2 b 0)))
      (IntOp.addi (labelCol t (ix2 b 0)) (broadcastInDim S8192x1 ![] bcast_S_S8192x1 (constantI S_ 32 32000#32) (ix2 b 0)))
      (labelCol t (ix2 b 0)) = t (ix1 b)
  rw [StableHlo.Predicate.bcast_scalar _ h_S_, StableHlo.Predicate.bcast_scalar _ h_S_, labelCol_row t lab hlab b]
  exact Cert.LibIndexWords.wrap_of_nonneg _ _ (by rw [hlab]; exact Int.natCast_nonneg _)

/-- The start indices at row `b`. -/
theorem startIdx_row (b : Fin 8192) : startIdx t (ix3 b 0 0) = t (ix1 b) := by
  have h : startIdx t (ix3 b 0 0) = wrapped t (ix2 b 0) := by
    unfold startIdx
    generalize wrapped t = y
    exact shapeCast_apply y shapeCasts_S8192x1_S8192x1x1 (ix3 b 0 0) (ix2 b 0)
      (by rewrite [Shape.rowMajor_val_two, Shape.rowMajor_val_three]; show b.val * 1 + 0 = (b.val * 1 + 0) * 1 + 0; omega)
  rw [h, wrapped_row t lab hlab b]

end Labels

/-! ## The guard -/

section Guard

variable (t : IVec S8192 32) (lab : Fin 8192 → Fin 32000)
  (hlab : ∀ b, (t (ix1 b)).toInt = ((lab b).val : ℤ))
include hlab

/-- The in-range bit at row `b` is 1. -/
theorem inrange_row (b : Fin 8192) :
    andi (cmpi .sge (startIdx t) (broadcastInDim S8192x1x1 ![] bcast_S_S8192x1x1 (constantI S_ 32 0#32)))
      (cmpi .sle (startIdx t) (broadcastInDim S8192x1x1 ![0, 1, 2] bcast_S1x1x1_S8192x1x1_0_1_2
        (broadcastInDim S1x1x1 ![2] bcast_S1_S1x1x1_2 (constantI S1 32 31999#32)))) (ix3 b 0 0) = 1#1 := by
  have hk := (lab b).isLt
  show IntOp.andi (IntOp.cmpi .sge (startIdx t (ix3 b 0 0)) 0#32) (IntOp.cmpi .sle (startIdx t (ix3 b 0 0)) 31999#32) = 1#1
  rw [startIdx_row t lab hlab b,
    Cert.ReferenceIdeal.RefValue.sge_zero_of_nonneg _ (by rw [hlab]; exact Int.natCast_nonneg _),
    Cert.ReferenceIdeal.RefValue.sle_top_of_lt _ (by rw [hlab]; omega)]
  exact Cert.ReferenceIdeal.RefValue.andi_one_one

omit hlab in
/-- The one index of the reduced axis over row `b`. -/
theorem lift_row (h : S8192x1x1.Reduces [2] S8192x1) (b : Fin 8192) (k : Fin (S8192x1x1.size 2)) :
    h.lift (ix2 b 0) k = ix3 b 0 0 := by
  have hk : k.val < 1 := k.isLt
  funext c; apply Fin.ext
  fin_cases c
  · rfl
  · rfl
  · show k.val = 0; omega

/-- The guard at row `b` is 1: the conjunction over the one position of the reduced axis of the in-range bit. -/
theorem guard_row (b : Fin 8192) : guard t (ix2 b 0) = 1#1 := by
  have hR : S8192x1x1.Reduces [2] S8192x1 := by decide
  unfold Tail.guard
  generalize hy : andi (cmpi .sge (startIdx t) (broadcastInDim S8192x1x1 ![] bcast_S_S8192x1x1 (constantI S_ 32 0#32)))
      (cmpi .sle (startIdx t) (broadcastInDim S8192x1x1 ![0, 1, 2] bcast_S1x1x1_S8192x1x1_0_1_2
        (broadcastInDim S1x1x1 ![2] bcast_S1_S1x1x1_2 (constantI S1 32 31999#32)))) = y
  have hbit : y (ix3 b 0 0) = 1#1 := by rw [← hy]; exact inrange_row t lab hlab b
  rw [Host.reduce_eq_fold_single (α := BitVec 1) IntOp.andi y _ reducesTo_S8192x1x1_S8192x1_d2 hR h_S_]
  have hfun : (y ∘ hR.lift (ix2 b 0)) = fun _ => (1#1 : BitVec 1) := by
    funext k
    simp only [Function.comp, lift_row hR b k]
    exact hbit
  rw [hfun]
  exact Cert.ReferenceIdeal.RefValue.fold_andi_ones _

end Guard

/-! ## The gather and the select -/

section Gather

variable (t : IVec S8192 32) (lab : Fin 8192 → Fin 32000)
  (hlab : ∀ b, (t (ix1 b)).toInt = ((lab b).val : ℤ))

theorem idx_entry (b : Fin 8192) (k : Fin 32000) :
    Cert.LibTakeAlongRows.entryOf (B := 8192) (C := 32000) (ix2 b 0) k.val k.isLt = ix2 b k := by
  funext a; match a with | ⟨0, _⟩ => rfl | ⟨1, _⟩ => rfl

theorem si_start (b : Fin 8192) : Cert.LibTakeAlongRows.siOf (B := 8192) (ix2 b 0) = ix3 b 0 0 := by
  funext a; match a with | ⟨0, _⟩ => rfl | ⟨1, _⟩ => rfl | ⟨2, _⟩ => rfl

variable (x : FVec Ideal S8192x32000 .f32)
include hlab

/-- The gather at row `b` reads the row's logit at the row's label. -/
theorem gathered_row (b : Fin 8192) :
    Host.gather gather_S8192x32000_S8192x1x1_S8192x1_n_1_0_0_1_2_11 x (startIdx t) (ix2 b 0) = x (ix2 b (lab b)) := by
  have hd : gather_S8192x32000_S8192x1x1_S8192x1_n_1_0_0_1_2_11
      = Cert.LibTakeAlongRows.dims 8192 32000 gather_S8192x32000_S8192x1x1_S8192x1_n_1_0_0_1_2_11_wf := rfl
  generalize hy : startIdx t = y
  have hs : y (Cert.LibTakeAlongRows.siOf (B := 8192) (ix2 b 0)) = t (ix1 b) := by
    rw [si_start, ← hy, startIdx_row t lab hlab b]
  rw [hd, Cert.LibTakeAlongRows.gather_apply (by decide : 0 < 32000)]
  have hm : min (y (Cert.LibTakeAlongRows.siOf (B := 8192) (ix2 b 0))).toInt.toNat (32000 - 1) = (lab b).val := by
    rw [hs]; exact Cert.LibIndexWords.clamp_of_eq _ 32000 (lab b) (hlab b)
  congr 1
  funext a
  match a with
  | ⟨0, _⟩ => rfl
  | ⟨1, _⟩ => exact Fin.ext hm

variable (X : Fin 8192 → Fin 32000 → ℝ) (hx : ∀ b v, x (ix2 b v) = ((X b v : ℝ) : EReal))
include hx

/-- The taken logit at row `b`. -/
theorem taken_row (b : Fin 8192) : taken (F := Ideal) x t (ix2 b 0) = ((X b (lab b) : ℝ) : EReal) := by
  unfold taken
  rw [select_apply, guard_row t lab hlab b, select_one, gathered_row t lab hlab x b, hx]

end Gather

/-! ## The mean -/

section Mean

/-- A column read flat at row `b`. -/
theorem flat_row (y : FVec Ideal S8192x1 .f32) (b : Fin 8192) :
    shapeCast S8192 y shapeCasts_S8192x1_S8192 (ix1 b) = y (ix2 b 0) :=
  shapeCast_apply y shapeCasts_S8192x1_S8192 (ix1 b) (ix2 b 0)
    (by rewrite [Shape.rowMajor_val_two, Shape.rowMajor_val_one]; show b.val * 1 + 0 = b.val; omega)

/-- The host's quotient at an index. -/
theorem hostDivf_apply {s : Shape} (a c : FVec Ideal s .f32) (i : s.Idx) : Host.divf a c i = Ideal.div (a i) (c i) := rfl

variable (t : IVec S8192 32) (lab : Fin 8192 → Fin 32000)
  (hlab : ∀ b, (t (ix1 b)).toInt = ((lab b).val : ℤ))
  (x : FVec Ideal S8192x32000 .f32) (X : Fin 8192 → Fin 32000 → ℝ) (hx : ∀ b v, x (ix2 b v) = ((X b v : ℝ) : EReal))
  (z : FVec Ideal S8192x1 .f32) (hz : ∀ b, z (ix2 b 0) = ((rowLse (X b) : ℝ) : EReal))
include hlab hx hz

/-- The difference at row `b`: the row's log-sum-exp minus the row's logit at its label. -/
theorem diff_row (b : Fin 8192) :
    subf (shapeCast S8192 z shapeCasts_S8192x1_S8192) (shapeCast S8192 (taken x t) shapeCasts_S8192x1_S8192) (ix1 b)
      = ((rowLse (X b) - X b (lab b) : ℝ) : EReal) := by
  rw [subf_apply, flat_row, flat_row, hz, taken_row t lab hlab x X hx b, ← EReal.coe_sub]

/-- The sum over the rows. -/
theorem total (i : S_.Idx) :
    Host.reduceAdd (subf (shapeCast S8192 z shapeCasts_S8192x1_S8192) (shapeCast S8192 (taken x t) shapeCasts_S8192x1_S8192))
        (constant S_ .f32 0x00000000#32) reducesTo_S8192_S_d0 h_S_ i
      = ((∑ b : Fin 8192, (rowLse (X b) - X b (lab b)) : ℝ) : EReal) := by
  generalize hy : subf (shapeCast S8192 z shapeCasts_S8192x1_S8192) (shapeCast S8192 (taken x t) shapeCasts_S8192x1_S8192) = y
  have hrow : ∀ b : Fin 8192, y (ix1 b) = ((rowLse (X b) - X b (lab b) : ℝ) : EReal) := by
    intro b; rw [← hy]; exact diff_row t lab hlab x X hx z hz b
  simp only [Host.reduceAdd, Ideal.hostReduceAdd_def]
  rw [Ideal.hostReduceAdd_total reducesTo_S8192_S_d0 (fun b => b.elim0) y _ i]
  have hsum : ∑ j : S8192.Idx, y j = ∑ b : Fin 8192, ((rowLse (X b) - X b (lab b) : ℝ) : EReal) := by
    rw [← Equiv.sum_comp Cert.ReferenceIdeal.RefValue.rowEquiv]
    exact Finset.sum_congr rfl fun b _ => hrow b
  rw [hsum, ← coe_sum, constant_apply, Cert.ReferenceIdeal.RefValue.ofBits_zero, zero_add]

end Mean

/-- The tail of real logits, labels that are class indices and the column of the rows' log-sum-exps is the loss. -/
theorem tail_loss (x : FVec Ideal S8192x32000 .f32) (t : IVec S8192 32) (z : FVec Ideal S8192x1 .f32)
    (X : Fin 8192 → Fin 32000 → ℝ) (lab : Fin 8192 → Fin 32000)
    (hx : ∀ b v, x (ix2 b v) = ((X b v : ℝ) : EReal)) (hlab : ∀ b, (t (ix1 b)).toInt = ((lab b).val : ℤ))
    (hz : ∀ b, z (ix2 b 0) = ((rowLse (X b) : ℝ) : EReal)) :
    tailFn (F := Ideal) x t z = fun _ => ((loss X lab : ℝ) : EReal) := by
  funext i
  unfold tailFn
  rw [hostDivf_apply, total t lab hlab x X hx z hz i, constant_apply, Cert.ReferenceIdeal.RefValue.ofBits_8192,
    Ideal.div_coe (by norm_num : (8192 : ℝ) ≠ 0), ← EReal.coe_mul, loss]
  congr 1
  ring

end Cert.KernelIdeal.TailValue
end
-- ==== Proof.lean ====
/-
  The kernel and its reference compute the same loss.

  For 8192 rows of 32000 logits and one label per row, both programs return the mean over the rows of the row's
  log-sum-exp minus the row's logit at its label. The kernel reaches each row's log-sum-exp tile by tile, with a running
  maximum that starts from a finite number and a running sum rescaled whenever the maximum moves, and then subtracts the
  logit it gathers at the clipped label; the reference subtracts each row's maximum once, takes the log-softmax, gathers
  it at the label (a negative label wrapped, a label outside the row read as a fill value) and negates the mean. Over the
  extended reals these agree when every logit is a real number and every label is a class index, which is what the
  precondition says: on a class index the clip and the wrap do nothing and the gather's guard is 1, and the maximum
  a log-sum-exp is shifted by cancels, whichever it is.

  The three programs run, and leave their arguments as they found them, by their frames: the kernel's at both
  instances as generated, the reference's from its straight-line run. Nothing was rewritten between the kernel and its
  idealization.
-/
import proofs.«400259_j7292854469120_3_alg».proof.Defs
import proofs.«400259_j7292854469120_3_alg».proof.Proof.Gen.Kernel
import proofs.«400259_j7292854469120_3_alg».proof.Proof.Gen.Kernel.Skeleton
import proofs.«400259_j7292854469120_3_alg».proof.Proof.Gen.Kernel.Launch
import proofs.«400259_j7292854469120_3_alg».proof.Proof.Gen.Kernel.Points
import proofs.«400259_j7292854469120_3_alg».proof.Proof.Gen.Kernel.Frame
import proofs.«400259_j7292854469120_3_alg».proof.Proof.Gen.KernelIdeal
import proofs.«400259_j7292854469120_3_alg».proof.Proof.Gen.KernelIdeal.Skeleton
import proofs.«400259_j7292854469120_3_alg».proof.Proof.Gen.KernelIdeal.Launch
import proofs.«400259_j7292854469120_3_alg».proof.Proof.Gen.KernelIdeal.Points
import proofs.«400259_j7292854469120_3_alg».proof.Proof.Gen.KernelIdeal.Frame
import proofs.«400259_j7292854469120_3_alg».proof.Proof.Gen.ReferenceIdeal
import proofs.«400259_j7292854469120_3_alg».proof.Proof.Gen.Pre_finite_inputs
import proofs.«400259_j7292854469120_3_alg».proof.Proof.PreFacts
import proofs.«400259_j7292854469120_3_alg».proof.Proof.KernelRun
import proofs.«400259_j7292854469120_3_alg».proof.Proof.KernelTailValue
import proofs.«400259_j7292854469120_3_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.HostRun.run (F := Ideal) m ρ)

/-- Under the precondition both programs end with the loss of the logits and the labels they were given. -/
theorem algebraic : Cert.algebraic_KernelIdeal_ReferenceIdeal := by
  intro m ρ m' ρ' hpre hagree
  -- every logit is a real number, every label a class index
  have hreal : ∀ i, ∃ r : ℝ, m (((0 : Dev Cert.KernelIdeal.nD).tc : Thread Cert.KernelIdeal.nD Cert.KernelIdeal.τ).loc Cert.KernelIdeal.main_arg0) i = (r : EReal) :=
    fun i => Cert.PreFacts.real_of_pre _ _ (hpre 0) i
  choose Xi hXi using hreal
  have hX : ∀ (c : Dev Cert.KernelIdeal.nD) (b : Fin 8192) (v : Fin 32000),
      m ((c : Thread Cert.KernelIdeal.nD Cert.KernelIdeal.τ).loc Cert.KernelIdeal.main_arg0) (ix2 b v) = ((Xi (ix2 b v) : ℝ) : EReal) := by
    intro c b v
    obtain rfl : c = 0 := Subsingleton.elim _ _
    exact hXi _
  have hl : ∀ b : Fin 8192, ∃ k : Fin 32000,
      (m (((0 : Dev Cert.KernelIdeal.nD).tc : Thread Cert.KernelIdeal.nD Cert.KernelIdeal.τ).loc Cert.KernelIdeal.main_arg1) (ix1 b)).toInt = ((k.val : ℕ) : ℤ) :=
    fun b => Cert.LibIndexWords.toInt_eq_fin_of_mem (Cert.PreFacts.label_of_pre _ _ (hpre 0) (ix1 b)).1 (Cert.PreFacts.label_of_pre _ _ (hpre 0) (ix1 b)).2
  choose lab hlab using hl
  refine ⟨fun _ _ => ((Cert.LossSpec.loss (fun b v => Xi (ix2 b v)) lab : ℝ) : EReal), ?_, ?_⟩
  · -- the kernel: the returned buffer after the operations that follow the region
    refine (θ_run Cert.KernelIdeal.defs _ _).mono (fun r h c => ?_) (Cert.KernelIdeal.Gen.run_main m ρ)
    obtain rfl : c = 0 := Subsingleton.elim _ _
    refine ⟨?_, ?_, ?_⟩
    · exact ((h 0).2 Cert.KernelIdeal.main_v8 (Pipeline.mem_restRefs_of Cert.KernelIdeal.main_v8 (by decide) (by decide))).trans
        ((Cert.KernelIdeal.Run.returned m (fun b v => Xi (ix2 b v)) hX 0).trans
          (Cert.KernelIdeal.TailValue.tail_loss _ _ _ (fun b v => Xi (ix2 b v)) lab (hX 0) hlab (fun _ => rfl)))
    · exact ((h 0).1 0).trans (((Cert.KernelIdeal.Gen.dats m 0 0).arrAt_in 0 rfl _).trans
        ((Cert.KernelIdeal.Gen.A_eq m 0 0).trans (Cert.KernelIdeal.Gen.V_main_arg0 m 0)))
    · exact ((h 0).2 Cert.KernelIdeal.main_arg1 (Pipeline.mem_restRefs_of Cert.KernelIdeal.main_arg1 (by decide) (by decide))).trans
        (Cert.KernelIdeal.Gen.W_main_arg1 m (Cert.KernelIdeal.Gen.dats m) 0)
  · -- the reference: its run's composed term is its last stage, read at the same logits and labels
    refine (θ_run Cert.ReferenceIdeal.defs _ _).mono (fun r h c => ⟨?_, (h c).2⟩) (Cert.ReferenceIdeal.HostRun.run (F := Ideal) m' ρ')
    obtain rfl : c = 0 := Subsingleton.elim _ _
    rw [(h 0).1, Cert.ReferenceIdeal.ReadP.val_main_v6_eq, (hagree 0).1, (hagree 0).2]
    exact Cert.ReferenceIdeal.RefValue.ref_value _ _ (fun b v => Xi (ix2 b v)) lab (hX 0) hlab

/-- The claim. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
